-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x8192 : Shape := ⟨2, ![8192, 8192]⟩
abbrev S1048576 : Shape := ⟨1, ![1048576]⟩
abbrev S8192x16 : Shape := ⟨2, ![8192, 16]⟩
abbrev S16x8192 : Shape := ⟨2, ![16, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S8192x16 : S_.BroadcastsInDim S8192x16 (![] : Fin 0 → Fin S8192x16.rank)
  reducesTo_S8192x16_S_d0_1 : S8192x16.ReducesTo [0, 1] S_
  bcast_S_S16x8192 : S_.BroadcastsInDim S16x8192 (![] : Fin 0 → Fin S16x8192.rank)
  reducesTo_S16x8192_S_d0_1 : S16x8192.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg1 : IVec S8192x8192 32) (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  let main_c_6 : IVec S_ 32 := constantI S_ 32 4294967280#32
  let main_v19 : IVec S8192x8192 32 := broadcastInDim S8192x8192 ![] bcast_S_S8192x8192 main_c_6
  let main_v20 : IVec S8192x8192 1 := cmpi .sge main_arg1 main_v19
  let main_c_7 : IVec S_ 32 := constantI S_ 32 16#32
  let main_v21 : IVec S8192x8192 32 := broadcastInDim S8192x8192 ![] bcast_S_S8192x8192 main_c_7
  let main_v22 : IVec S8192x8192 1 := cmpi .slt main_arg1 main_v21
  let main_v23 : IVec S8192x8192 1 := andi main_v20 main_v22
  let main_c_8 : IVec S_ 1 := constantI S_ 1 1#1
  let main_v24 : IVec S_ 1 := (fun x v => Host.reduce IntOp.andi x v reducesTo_S8192x8192_S_d0_1 h_S_) main_v23 main_c_8
  let main_v25 : IVec S_ 1 := andi main_v18 main_v24
  main_v25

def fn {F : FTy → Type} [FloatOps F] (main_arg0 : FVec F S64x8192 .f32) (main_arg1 : IVec S8192x8192 32) (main_arg2 : FVec F S1048576 .f32) (main_arg3 : FVec F S8192x16 .f32) (main_arg4 : FVec F S16x8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S1048576 .f32 := Host.absf main_arg2
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  let main_v14 : FVec F S16x8192 .f32 := Host.absf main_arg4
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_arg1 main_v13 main_v16
-- ==== Kernel.lean ====
abbrev S64x8192 : Shape := ⟨2, ![64, 8192]⟩
abbrev S8192x8192 : Shape := ⟨2, ![8192, 8192]⟩
abbrev S1048576 : Shape := ⟨1, ![1048576]⟩
abbrev S8192x16 : Shape := ⟨2, ![8192, 16]⟩
abbrev S16x8192 : Shape := ⟨2, ![16, 8192]⟩
abbrev S8192x128 : Shape := ⟨2, ![8192, 128]⟩
abbrev S128x8192 : Shape := ⟨2, ![128, 8192]⟩
abbrev S64x16 : Shape := ⟨2, ![64, 16]⟩
abbrev S1024x1024 : Shape := ⟨2, ![1024, 1024]⟩
abbrev S16x1024 : Shape := ⟨2, ![16, 1024]⟩
abbrev S64x1024 : Shape := ⟨2, ![64, 1024]⟩

abbrev nBuf : Space → Nat
  | .hbm => 9
  | .vmem => 11
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S1048576, .f32⟩
  | .hbm, ⟨3, _⟩ => ⟨S8192x16, .f32⟩
  | .hbm, ⟨4, _⟩ => ⟨S16x8192, .f32⟩
  | .hbm, ⟨5, _⟩ => ⟨S8192x128, .f32⟩
  | .hbm, ⟨6, _⟩ => ⟨S128x8192, .f32⟩
  | .hbm, ⟨7, _⟩ => ⟨S64x16, .f32⟩
  | .hbm, ⟨8, _⟩ => ⟨S64x8192, .f32⟩
  | .local _ .vmem, ⟨0, _⟩ => ⟨S64x8192, .f32⟩
  | .local _ .vmem, ⟨1, _⟩ => ⟨S1024x1024, .i32⟩
  | .local _ .vmem, ⟨2, _⟩ => ⟨S1024x1024, .i32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S64x16, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v102 : BitVec 1 := Scalar.cmpi .eq arg1 c7_i32
  let v103 : BitVec 32 := Scalar.extui v102
  let c0_i32_41 : BitVec 32 := 0#32
  let v104 : BitVec 1 := Scalar.cmpi .ne v103 c0_i32_41
  v104

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S64x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1048576_S8192x128 : S1048576.ShapeCasts S8192x128
  transposes_S8192x128_S128x8192_1_0 : S8192x128.Transposes [1, 0] S128x8192
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S16x1024_S16x1024_0_0 : ∀ a, (![0, 0] : Fin 2 → Nat) a + S16x1024.size a ≤ S16x1024.size a
  h_S16x1024 : 0 < S16x1024.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x1024_S1024x1024_0_0 : ∀ a, (![0, 0] : Fin 2 → Nat) a + S1024x1024.size a ≤ S1024x1024.size a
  h_S1024x1024 : 0 < S1024x1024.numel
  iota_S16x1024_d1_w32 : S16x1024.Iotas .tc 32 [1]
  natLt_1_32 : 1 < 32
  iota_S16x1024_d0_w32 : S16x1024.Iotas .tc 32 [0]
  shapeCasts_S16x1024_S16x1024 : S16x1024.ShapeCasts S16x1024
  dot_S64x8192_S8192x16_S64x16_1_0_0_1_n_n_wf : DotDims.WF S64x8192 S8192x16 S64x16 [1] [0] [0] [1] [] []
  dot_S64x16_S16x1024_S64x1024_1_0_0_1_n_n_wf : DotDims.WF S64x16 S16x1024 S64x1024 [1] [0] [0] [1] [] []
  dot_S16x1024_S16x1024_S1024x1024_0_0_1_1_n_n_wf : DotDims.WF S16x1024 S16x1024 S1024x1024 [0] [0] [1] [1] [] []
  dot_S64x1024_S1024x1024_S64x1024_1_1_0_0_n_n_wf : DotDims.WF S64x1024 S1024x1024 S64x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S64x1024.size a ≤ S64x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .f32 = 32 ∨ (Rect.block (s := S64x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .i32 = 32 ∨ (Rect.block (s := S8192x8192) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S128x8192.size a
  hwx0_2 : ∀ i : grid0.Coords, EltTy.bits .f32 = 32 ∨ (Rect.block (s := S128x8192) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x8192.size a
  hwx0_3 : ∀ i : grid0.Coords, EltTy.bits .f32 = 32 ∨ (Rect.block (s := S16x8192) S16x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x8192.size a
  hwx0_5 : ∀ i : grid0.Coords, EltTy.bits .f32 = 32 ∨ (Rect.block (s := S64x8192) S64x1024.size (cc0_transform_5 i) (hinb0_5 i)).WholeWords (EltTy.packing .f32)

variable [Facts₀]

def dot_S64x8192_S8192x16_S64x16_1_0_0_1_n_n : DotDims S64x8192 S8192x16 S64x16 where
  lhsContracting := [1]
  rhsContracting := [0]
  lhsNonContracting := [0]
  rhsNonContracting := [1]
  lhsBatch := []
  rhsBatch := []
  wf := dot_S64x8192_S8192x16_S64x16_1_0_0_1_n_n_wf
def dot_S64x16_S16x1024_S64x1024_1_0_0_1_n_n : DotDims S64x16 S16x1024 S64x1024 where
  lhsContracting := [1]
  rhsContracting := [0]
  lhsNonContracting := [0]
  rhsNonContracting := [1]
  lhsBatch := []
  rhsBatch := []
  wf := dot_S64x16_S16x1024_S64x1024_1_0_0_1_n_n_wf
def dot_S16x1024_S16x1024_S1024x1024_0_0_1_1_n_n : DotDims S16x1024 S16x1024 S1024x1024 where
  lhsContracting := [0]
  rhsContracting := [0]
  lhsNonContracting := [1]
  rhsNonContracting := [1]
  lhsBatch := []
  rhsBatch := []
  wf := dot_S16x1024_S16x1024_S1024x1024_0_0_1_1_n_n_wf
def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf

abbrev win0_0 : Pipeline.Window sig grid0 :=
  Pipeline.Window.ofSpec (Memref.whole main_arg0) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x8192 : Shape := ⟨2, ![64, 8192]⟩
abbrev S8192x8192 : Shape := ⟨2, ![8192, 8192]⟩
abbrev S1048576 : Shape := ⟨1, ![1048576]⟩
abbrev S8192x16 : Shape := ⟨2, ![8192, 16]⟩
abbrev S16x8192 : Shape := ⟨2, ![16, 8192]⟩
abbrev S16 : Shape := ⟨1, ![16]⟩
abbrev S67108864 : Shape := ⟨1, ![67108864]⟩
abbrev S_ : Shape := ⟨0, ![]⟩
abbrev S67108864x1 : Shape := ⟨2, ![67108864, 1]⟩
abbrev S1 : Shape := ⟨1, ![1]⟩
abbrev S1x1 : Shape := ⟨2, ![1, 1]⟩
abbrev S1048576x64 : Shape := ⟨2, ![1048576, 64]⟩
abbrev S1048576x1 : Shape := ⟨2, ![1048576, 1]⟩
abbrev S64x16 : Shape := ⟨2, ![64, 16]⟩

abbrev nBuf : Space → Nat
  | .hbm => 42
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S1048576, .f32⟩
  | .hbm, ⟨3, _⟩ => ⟨S8192x16, .f32⟩
  | .hbm, ⟨4, _⟩ => ⟨S16x8192, .f32⟩
  | .hbm, ⟨5, _⟩ => ⟨S16, .f32⟩
  | .hbm, ⟨6, _⟩ => ⟨S67108864, .i32⟩
  | .hbm, ⟨7, _⟩ => ⟨S_, .i32⟩
  | .hbm, ⟨8, _⟩ => ⟨S67108864, .i32⟩
  | .hbm, ⟨9, _⟩ => ⟨S67108864, .i1⟩
  | .hbm, ⟨10, _⟩ => ⟨S_, .i32⟩
  | .hbm, ⟨11, _⟩ => ⟨S67108864, .i32⟩
  | .hbm, ⟨12, _⟩ => ⟨S67108864, .i32⟩
  | .hbm, ⟨13, _⟩ => ⟨S67108864, .i32⟩
  | .hbm, ⟨14, _⟩ => ⟨S67108864x1, .i32⟩
  | .hbm, ⟨15, _⟩ => ⟨S1, .i32⟩
  | .hbm, ⟨16, _⟩ => ⟨S_, .i32⟩
  | .hbm, ⟨17, _⟩ => ⟨S67108864x1, .i32⟩
  | .hbm, ⟨18, _⟩ => ⟨S67108864x1, .i1⟩
  | .hbm, ⟨19, _⟩ => ⟨S1x1, .i32⟩
  | .hbm, ⟨20, _⟩ => ⟨S67108864x1, .i32⟩
  | .hbm, ⟨21, _⟩ => ⟨S67108864x1, .i1⟩
  | .hbm, ⟨22, _⟩ => ⟨S67108864x1, .i1⟩
  | .hbm, ⟨23, _⟩ => ⟨S_, .i1⟩
  | .hbm, ⟨24, _⟩ => ⟨S67108864, .i1⟩
  | .hbm, ⟨25, _⟩ => ⟨S67108864, .f32⟩
  | .hbm, ⟨26, _⟩ => ⟨S_, .f32⟩
  | .hbm, ⟨27, _⟩ => ⟨S67108864, .f32⟩
  | .hbm, ⟨28, _⟩ => ⟨S67108864, .f32⟩
  | .hbm, ⟨29, _⟩ => ⟨S1048576x64, .f32⟩
  | .hbm, ⟨30, _⟩ => ⟨S1048576x1, .f32⟩
  | .hbm, ⟨31, _⟩ => ⟨S1048576x64, .f32⟩
  | .hbm, ⟨32, _⟩ => ⟨S1048576x64, .f32⟩
  | .hbm, ⟨33, _⟩ => ⟨S8192x8192, .f32⟩
  | .hbm, ⟨34, _⟩ => ⟨S8192x8192, .f32⟩
  | .hbm, ⟨35, _⟩ => ⟨S64x8192, .f32⟩
  | .hbm, ⟨36, _⟩ => ⟨S64x16, .f32⟩
  | .hbm, ⟨37, _⟩ => ⟨S64x8192, .f32⟩
  | .hbm, ⟨38, _⟩ => ⟨S_, .f32⟩
  | .hbm, ⟨39, _⟩ => ⟨S64x8192, .f32⟩
  | .hbm, ⟨40, _⟩ => ⟨S64x8192, .f32⟩
  | .hbm, ⟨41, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩

abbrev nD : Nat := 1
abbrev τ : Topo := Topo.v7x

variable {F : FTy → Type} [FloatOps F]

class Facts₀ : Prop where
  shapeCasts_S8192x8192_S67108864 : S8192x8192.ShapeCasts S67108864
  bcast_S_S67108864 : S_.BroadcastsInDim S67108864 (![] : Fin 0 → Fin S67108864.rank)
  bcast_S67108864_S67108864x1_0 : S67108864.BroadcastsInDim S67108864x1 (![0] : Fin 1 → Fin S67108864x1.rank)
  bcast_S_S67108864x1 : S_.BroadcastsInDim S67108864x1 (![] : Fin 0 → Fin S67108864x1.rank)
  bcast_S1_S1x1_1 : S1.BroadcastsInDim S1x1 (![1] : Fin 1 → Fin S1x1.rank)
  bcast_S1x1_S67108864x1_0_1 : S1x1.BroadcastsInDim S67108864x1 (![0, 1] : Fin 2 → Fin S67108864x1.rank)
  reducesTo_S67108864x1_S67108864_d1 : S67108864x1.ReducesTo [1] S67108864
  h_S_ : 0 < S_.numel
  shapeCasts_S67108864_S1048576x64 : S67108864.ShapeCasts S1048576x64
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  shapeCasts_S1048576x64_S8192x8192 : S1048576x64.ShapeCasts S8192x8192
  transposes_S8192x8192_S8192x8192_1_0 : S8192x8192.Transposes [1, 0] S8192x8192
  bcast_S_S64x8192 : S_.BroadcastsInDim S64x8192 (![] : Fin 0 → Fin S64x8192.rank)
  gather_S16_S67108864x1_S67108864_n_0_n_n_0_1_1_wf : GatherDims.WF S16 S67108864x1 S67108864 [] [0] [] [0] [] 1 ![1]
  dot_S64x8192_S8192x8192_S64x8192_1_0_0_1_n_n_wf : DotDims.WF S64x8192 S8192x8192 S64x8192 [1] [0] [0] [1] [] []
  dot_S64x8192_S8192x16_S64x16_1_0_0_1_n_n_wf : DotDims.WF S64x8192 S8192x16 S64x16 [1] [0] [0] [1] [] []
  dot_S64x16_S16x8192_S64x8192_1_0_0_1_n_n_wf : DotDims.WF S64x16 S16x8192 S64x8192 [1] [0] [0] [1] [] []

variable [Facts₀]

def gather_S16_S67108864x1_S67108864_n_0_n_n_0_1_1 : GatherDims S16 S67108864x1 S67108864 where
  offsetDims := []
  collapsedSliceDims := [0]
  operandBatchingDims := []
  startIndicesBatchingDims := []
  startIndexMap := [0]
  indexVectorDim := 1
  sliceSizes := ![1]
  wf := gather_S16_S67108864x1_S67108864_n_0_n_n_0_1_1_wf
def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf
def dot_S64x8192_S8192x16_S64x16_1_0_0_1_n_n : DotDims S64x8192 S8192x16 S64x16 where
  lhsContracting := [1]
  rhsContracting := [0]
  lhsNonContracting := [0]
  rhsNonContracting := [1]
  lhsBatch := []
  rhsBatch := []
  wf := dot_S64x8192_S8192x16_S64x16_1_0_0_1_n_n_wf
def dot_S64x16_S16x8192_S64x8192_1_0_0_1_n_n : DotDims S64x16 S16x8192 S64x8192 where
  lhsContracting := [1]
  rhsContracting := [0]
  lhsNonContracting := [0]
  rhsNonContracting := [1]
  lhsBatch := []
  rhsBatch := []
  wf := dot_S64x16_S16x8192_S64x8192_1_0_0_1_n_n_wf

class Facts : Prop extends Facts₀ where

variable [Facts]
-- ==== Proof.Spec.lean ====
/-
  The function both programs compute, index by index, on the extended reals.

  A weight entry is an NF4 level scaled by its block's absmax: the level is read off a 16-entry table at the code's
  low four bits, the block is 64 consecutive entries of a weight row, so entry (o, i) belongs to block o * 128 + i / 64.
  The result at (t, o) is the row-times-row product of x with the dequantized weight over all 8192 input features,
  plus the low-rank term (x A) B taken with the factor 1.0 the sources write.
-/
import Idealize.ShloMosaic.Lib.ValueIdx
import Idealize.ShloMosaic.PureOps.Ideal
import Idealize.ShloMosaic.PureOps.Ideal.Laws

noncomputable section

open scoped BigOperators

namespace Cert.QLoRA

open Idealize.ShloMosaic Idealize.ShloMosaic.ValueIdx

/-- The sixteen NF4 levels as f32 words, in code order. -/
def level : Fin 16 → BitVec 32 := fun
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | _ => 0#32

/-- A code's level: the table entry at the code's low four bits. For a code in [0, 16) this is the entry at the code;
    for a code in [-16, 0) it is the entry counted from the table's end, code + 16. -/
def decode (c : BitVec 32) : EReal := Ideal.ofBits .f32 (level ⟨c.toNat % 16, Nat.mod_lt _ (by norm_num)⟩)

/-- The codes a 16-entry table lookup with end-relative negative indices accepts. -/
def InRange (c : BitVec 32) : Prop := -16 ≤ c.toInt ∧ c.toInt < 16

/-- The factor 1.0 both sources multiply the low-rank term by, as the word they print. -/
def one : EReal := Ideal.ofBits .f32 0x3F800000#32

variable (x : (⟨2, ![64, 8192]⟩ : Shape).Idx → EReal) (codes : (⟨2, ![8192, 8192]⟩ : Shape).Idx → BitVec 32)
  (absmax : (⟨1, ![1048576]⟩ : Shape).Idx → EReal) (A : (⟨2, ![8192, 16]⟩ : Shape).Idx → EReal)
  (B : (⟨2, ![16, 8192]⟩ : Shape).Idx → EReal)

/-- The dequantized weight at output feature o and input feature i. -/
def weight (o i : Fin 8192) : EReal :=
  decode (codes (ix2 o i)) * absmax (ix1 ⟨o.val * 128 + i.val / 64, by omega⟩)

/-- x A at token t and rank r. -/
def proj (t : Fin 64) (r : Fin 16) : EReal := ∑ i : Fin 8192, x (ix2 t i) * A (ix2 i r)

/-- (x A) B at token t and output feature o. -/
def lowRank (t : Fin 64) (o : Fin 8192) : EReal := ∑ r : Fin 16, proj x A t r * B (ix2 r o)

/-- x times the dequantized weight's transpose at (t, o), over all input features at once. -/
def dense (t : Fin 64) (o : Fin 8192) : EReal := ∑ i : Fin 8192, x (ix2 t i) * weight codes absmax o i

/-- The same product restricted to the s-th run of 1024 input features. -/
def denseTile (t : Fin 64) (o : Fin 8192) (s : Fin 8) : EReal :=
  ∑ cc : Fin 1024, x (ix2 t ⟨1024 * s.val + cc.val, by omega⟩) * weight codes absmax o ⟨1024 * s.val + cc.val, by omega⟩

/-- THE RESULT at (t, o) as the reference arranges it: the dense product plus 1.0 times the low-rank term. -/
def resultAt (t : Fin 64) (o : Fin 8192) : EReal := dense x codes absmax t o + one * lowRank x A B t o

/-- THE RESULT at (t, o) as the kernel accumulates it: 1.0 times the low-rank term first, then the eight tiles' products
    added in order. -/
def tiledAt (t : Fin 64) (o : Fin 8192) : EReal :=
  one * lowRank x A B t o + ∑ s ∈ Finset.range 8, denseTile x codes absmax t o ⟨s % 8, Nat.mod_lt _ (by norm_num)⟩

/-- The result array, reference arrangement. -/
def G : (⟨2, ![64, 8192]⟩ : Shape).Idx → EReal := fun j =>
  resultAt x codes absmax A B ⟨(j 0).val, idx2_lt0 j⟩ ⟨(j 1).val, idx2_lt1 j⟩

/-- The result array, kernel arrangement. -/
def Gtiled : (⟨2, ![64, 8192]⟩ : Shape).Idx → EReal := fun j =>
  tiledAt x codes absmax A B ⟨(j 0).val, idx2_lt0 j⟩ ⟨(j 1).val, idx2_lt1 j⟩

theorem G_ix2 (t : Fin 64) (o : Fin 8192) : G x codes absmax A B (ix2 t o) = resultAt x codes absmax A B t o := rfl

theorem Gtiled_ix2 (t : Fin 64) (o : Fin 8192) : Gtiled x codes absmax A B (ix2 t o) = tiledAt x codes absmax A B t o := rfl

end Cert.QLoRA

end
-- ==== Proof.Arrange.lean ====
/-
  The kernel's arrangement of the result and the reference's are one function: the 8192 input features split into
  eight runs of 1024, and the two summands of the result exchanged. Addition of extended reals is commutative and
  associative, so neither step needs the inputs finite.
-/
import proofs.«404028_j44513041055937_2_alg».proof.Proof.Spec
import Mathlib.Algebra.BigOperators.Fin

noncomputable section

open scoped BigOperators

namespace Cert.QLoRA

open Idealize.ShloMosaic Idealize.ShloMosaic.ValueIdx

variable (x : (⟨2, ![64, 8192]⟩ : Shape).Idx → EReal) (codes : (⟨2, ![8192, 8192]⟩ : Shape).Idx → BitVec 32)
  (absmax : (⟨1, ![1048576]⟩ : Shape).Idx → EReal) (A : (⟨2, ![8192, 16]⟩ : Shape).Idx → EReal)
  (B : (⟨2, ![16, 8192]⟩ : Shape).Idx → EReal)

/-- A sum over 8192 indices is the sum, over the eight runs, of each run's 1024 terms: the pair (s, cc) names index
    1024 s + cc, a bijection of Fin 8 × Fin 1024 with Fin 8192, and a finite sum in a commutative monoid does not depend
    on how its index set is enumerated. -/
theorem sum_tiles {β : Type*} [AddCommMonoid β] (f : Fin 8192 → β) :
    ∑ i : Fin 8192, f i = ∑ s ∈ Finset.range 8, ∑ cc : Fin 1024,
      f ⟨1024 * (s % 8) + cc.val, by have := Nat.mod_lt s (by norm_num : 8 > 0); have := cc.isLt; omega⟩ := by
  rw [Finset.sum_range (fun s => ∑ cc : Fin 1024,
    f ⟨1024 * (s % 8) + cc.val, by have := Nat.mod_lt s (by norm_num : 8 > 0); have := cc.isLt; omega⟩)]
  rw [← Fintype.sum_prod_type' (f := fun (s : Fin 8) (cc : Fin 1024) =>
    f ⟨1024 * (s.val % 8) + cc.val, by have := Nat.mod_lt s.val (by norm_num : 8 > 0); have := cc.isLt; omega⟩)]
  symm
  refine Fintype.sum_equiv (finProdFinEquiv (m := 8) (n := 1024)) _ _ (fun p => ?_)
  congr 1
  apply Fin.ext
  simp [finProdFinEquiv, Nat.mod_eq_of_lt p.1.isLt]
  omega

/-- Splitting the 8192 input features into eight runs of 1024 does not change the dense product. -/
theorem dense_eq_tiles (t : Fin 64) (o : Fin 8192) :
    dense x codes absmax t o = ∑ s ∈ Finset.range 8, denseTile x codes absmax t o ⟨s % 8, Nat.mod_lt _ (by norm_num)⟩ := by
  unfold dense denseTile
  exact sum_tiles (fun i => x (ix2 t i) * weight codes absmax o i)

/-- The two arrangements are one function. -/
theorem Gtiled_eq_G : Gtiled x codes absmax A B = G x codes absmax A B := by
  funext j
  unfold Gtiled G tiledAt resultAt
  rw [dense_eq_tiles, add_comm]

end Cert.QLoRA

end
-- ==== Proof.PreRange.lean ====
/-
  The precondition's last conjunct, decoded: every code lies in [-16, 16).
-/
import proofs.«404028_j44513041055937_2_alg».proof.Pre_finite_inputs
import proofs.«404028_j44513041055937_2_alg».proof.Proof.Spec
import Idealize.ShloMosaic.Lib.StableHlo.Predicate
import Idealize.ShloMosaic.Lib.ReduceAll
import Idealize.ShloMosaic.Lib.ValueIdx

noncomputable section

namespace Cert.Pre_finite_inputs.Hand

open Cert.Pre_finite_inputs Idealize.ShloMosaic Idealize.ShloMosaic.ValueIdx

/-- The rank-0 shape has one index. -/
private instance : Subsingleton S_.Idx := ⟨fun a b => funext fun d => d.elim0⟩

/-- If the printed precondition evaluates to true, every code is in the lookup's range. -/
theorem codes_inRange {F : FTy → Type} [FloatOps F] [Facts] (x : FVec F S64x8192 .f32) (codes : IVec S8192x8192 32)
    (absmax : FVec F S1048576 .f32) (A : FVec F S8192x16 .f32) (B : FVec F S16x8192 .f32)
    (h : fn (F := F) x codes absmax A B = fun _ => 1#1) : ∀ i, Cert.QLoRA.InRange (codes i) := by
  intro i
  -- the conjunction at its one index; its last conjunct is the reduce-and of the range test over all entries
  have h0 := congrFun h ValueIdx.ix0
  dsimp only [fn, fn_part1] at h0
  have h24 := (IntOp.andi_eq_one.1 h0).2
  -- a reduce-and into one index that is 1 met a 1 at every entry
  have hi := Host.reduce_andi_all _ _ _ _ _ h24 i
  obtain ⟨hge, hlt⟩ := IntOp.andi_eq_one.1 hi
  -- the two signed compares against the broadcast constants -16 and 16
  have hge' : (4294967280#32 : BitVec 32).toInt ≤ (codes i).toInt := IntOp.cmpi_sge.1 hge
  have hlt' : (codes i).toInt < (16#32 : BitVec 32).toInt := IntOp.cmpi_slt.1 hlt
  have e1 : (4294967280#32 : BitVec 32).toInt = -16 := by decide
  have e2 : (16#32 : BitVec 32).toInt = 16 := by decide
  exact ⟨e1 ▸ hge', e2 ▸ hlt'⟩

end Cert.Pre_finite_inputs.Hand

end
-- ==== Proof.RefTerm.lean ====
/-
  The reference's result as one pure function of its five arguments: its operations composed in program order. The level
  table is looked up at the flattened codes the way a table lookup with end-relative negative indices does it: a negative
  code has 16 added, the lookup clamps, and a code that is then still outside [0, 15] yields the fill value instead.
-/
import proofs.«404028_j44513041055937_2_alg».proof.ReferenceIdeal

noncomputable section

namespace Cert.ReferenceIdeal.Hand

open Cert.ReferenceIdeal Idealize.ShloMosaic
open Facts₀

variable {F : FTy → Type} [FloatOps F] [Facts]

/-- The lookup of a 16-entry table at a flat array of codes. -/
def take (tbl : FVec F S16 .f32) (idx : IVec S67108864 32) : FVec F S67108864 .f32 :=
  let wrapped : IVec S67108864 32 :=
    select (cmpi .slt idx (broadcastInDim S67108864 ![] bcast_S_S67108864 (constantI S_ 32 0#32)))
      (addi idx (broadcastInDim S67108864 ![] bcast_S_S67108864 (constantI S_ 32 16#32))) idx
  let col : IVec S67108864x1 32 := broadcastInDim S67108864x1 ![0] bcast_S67108864_S67108864x1_0 wrapped
  let ge : IVec S67108864x1 1 := cmpi .sge col (broadcastInDim S67108864x1 ![] bcast_S_S67108864x1 (constantI S_ 32 0#32))
  let le : IVec S67108864x1 1 := cmpi .sle col
    (broadcastInDim S67108864x1 ![0, 1] bcast_S1x1_S67108864x1_0_1 (broadcastInDim S1x1 ![1] bcast_S1_S1x1_1 (constantI S1 32 15#32)))
  let ok : IVec S67108864 1 := Host.reduce IntOp.andi (andi ge le) (constantI S_ 1 1#1) reducesTo_S67108864x1_S67108864_d1 h_S_
  select ok (Host.gather gather_S16_S67108864x1_S67108864_n_0_n_n_0_1_1 tbl col)
    (broadcastInDim S67108864 ![] bcast_S_S67108864 (constant S_ .f32 0x7FC00000#32))

/-- The reference's result. -/
def out (x : FVec F S64x8192 .f32) (codes : IVec S8192x8192 32) (absmax : FVec F S1048576 .f32)
    (A : FVec F S8192x16 .f32) (B : FVec F S16x8192 .f32) : FVec F S64x8192 .f32 :=
  let tbl : FVec F S16 .f32 := fun i => FloatOps.ofBits .f32 (lit0 (S16.rowMajor i))
  let vals : FVec F S67108864 .f32 := take tbl (shapeCast S67108864 codes shapeCasts_S8192x8192_S67108864)
  let scale : FVec F S1048576x64 .f32 := broadcastInDim S1048576x64 ![0, 1] bcast_S1048576x1_S1048576x64_0_1
    (broadcastInDim S1048576x1 ![0] bcast_S1048576_S1048576x1_0 absmax)
  let w : FVec F S8192x8192 .f32 :=
    shapeCast S8192x8192 (mulf (shapeCast S1048576x64 vals shapeCasts_S67108864_S1048576x64) scale) shapeCasts_S1048576x64_S8192x8192
  let wT : FVec F S8192x8192 .f32 := transpose S8192x8192 [1, 0] w transposes_S8192x8192_S8192x8192_1_0
  let dense : FVec F S64x8192 .f32 := Host.dotGeneral dot_S64x8192_S8192x8192_S64x8192_1_0_0_1_n_n none x wT
  let xa : FVec F S64x16 .f32 := Host.dotGeneral dot_S64x8192_S8192x16_S64x16_1_0_0_1_n_n none x A
  let low : FVec F S64x8192 .f32 := Host.dotGeneral dot_S64x16_S16x8192_S64x8192_1_0_0_1_n_n none xa B
  addf dense (mulf (broadcastInDim S64x8192 ![] bcast_S_S64x8192 (constant S_ .f32 0x3F800000#32)) low)

end Cert.ReferenceIdeal.Hand

end
-- ==== Proof.RefRun.lean ====
/-
  The reference program is a straight line of host operations (the table lookup's callee written out at its call):
  every execution ends with the result buffer at the operations' composed term of the five arguments, which it leaves
  as they were.
-/
import proofs.«404028_j44513041055937_2_alg».proof.Proof.RefTerm
import proofs.«404028_j44513041055937_2_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem

variable {F : FTy → Type} [FloatOps F] [Facts]

section Line

open Idealize.ShloMosaic.StableHlo Facts₀

/-- The program's thirty-seven operations in order: the level table and the flattened codes; the lookup's twenty-two
    written out over its call's buffers (a negative code has 16 added — the comparison with zero, the sum, the select
    of the nested call —, the codes as a column, the two range tests and their conjunction reduced along the column's
    unit axis, the gather, the fill value, the final select); then the scaling by the block maxima, the transpose, the
    three products and the sum. The lookup's operations are stated at the buffers themselves: at these literal
    buffers a callee's typed reference carries the buffer's own type, and its transports are the identity. -/
private abbrev ops : List (HloOp τ sig (Elt F)) :=
  [ nullary main_cst (fun i => FloatOps.ofBits .f32 (lit0 (S16.rowMajor i))),
    reshape main_arg1 main_v0 rfl shapeCasts_S8192x8192_S67108864,
    nullary main_call0_c (constantI S_ 32 0#32),
    unary main_call0_c main_call0_v0 (broadcastInDim S67108864 ![] bcast_S_S67108864 : (⟨S_, .i32⟩ : BufTy).Contents (Elt F) → (⟨S67108864, .i32⟩ : BufTy).Contents (Elt F)),
    binary main_v0 main_call0_v0 main_call0_v1 (cmpi .slt : (⟨S67108864, .i32⟩ : BufTy).Contents (Elt F) → (⟨S67108864, .i32⟩ : BufTy).Contents (Elt F) → (⟨S67108864, .i1⟩ : BufTy).Contents (Elt F)),
    nullary main_call0_c_0 (constantI S_ 32 16#32),
    unary main_call0_c_0 main_call0_v2 (broadcastInDim S67108864 ![] bcast_S_S67108864 : (⟨S_, .i32⟩ : BufTy).Contents (Elt F) → (⟨S67108864, .i32⟩ : BufTy).Contents (Elt F)),
    binary main_v0 main_call0_v2 main_call0_v3 (addi : (⟨S67108864, .i32⟩ : BufTy).Contents (Elt F) → (⟨S67108864, .i32⟩ : BufTy).Contents (Elt F) → (⟨S67108864, .i32⟩ : BufTy).Contents (Elt F)),
    ternary main_call0_v1 main_call0_v3 main_v0 main_call0_v4 (select : (⟨S67108864, .i1⟩ : BufTy).Contents (Elt F) → (⟨S67108864, .i32⟩ : BufTy).Contents (Elt F) → (⟨S67108864, .i32⟩ : BufTy).Contents (Elt F) → (⟨S67108864, .i32⟩ : BufTy).Contents (Elt F)),
    unary main_call0_v4 main_call0_v5 (broadcastInDim S67108864x1 ![0] bcast_S67108864_S67108864x1_0 : (⟨S67108864, .i32⟩ : BufTy).Contents (Elt F) → (⟨S67108864x1, .i32⟩ : BufTy).Contents (Elt F)),
    nullary main_call0_c_1 (constantI S1 32 15#32),
    nullary main_call0_c_2 (constantI S_ 32 0#32),
    unary main_call0_c_2 main_call0_v6 (broadcastInDim S67108864x1 ![] bcast_S_S67108864x1 : (⟨S_, .i32⟩ : BufTy).Contents (Elt F) → (⟨S67108864x1, .i32⟩ : BufTy).Contents (Elt F)),
    binary main_call0_v5 main_call0_v6 main_call0_v7 (cmpi .sge : (⟨S67108864x1, .i32⟩ : BufTy).Contents (Elt F) → (⟨S67108864x1, .i32⟩ : BufTy).Contents (Elt F) → (⟨S67108864x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S67108864x1 ![0, 1] bcast_S1x1_S67108864x1_0_1 : (⟨S1x1, .i32⟩ : BufTy).Contents (Elt F) → (⟨S67108864x1, .i32⟩ : BufTy).Contents (Elt F)),
    binary main_call0_v5 main_call0_v9 main_call0_v10 (cmpi .sle : (⟨S67108864x1, .i32⟩ : BufTy).Contents (Elt F) → (⟨S67108864x1, .i32⟩ : BufTy).Contents (Elt F) → (⟨S67108864x1, .i1⟩ : BufTy).Contents (Elt F)),
    binary main_call0_v7 main_call0_v10 main_call0_v11 (andi : (⟨S67108864x1, .i1⟩ : BufTy).Contents (Elt F) → (⟨S67108864x1, .i1⟩ : BufTy).Contents (Elt F) → (⟨S67108864x1, .i1⟩ : BufTy).Contents (Elt F)),
    nullary main_call0_c_3 (constantI S_ 1 1#1),
    binary main_call0_v11 main_call0_c_3 main_call0_v12 ((fun x v => Host.reduce IntOp.andi x v reducesTo_S67108864x1_S67108864_d1 h_S_) : (⟨S67108864x1, .i1⟩ : BufTy).Contents (Elt F) → (⟨S_, .i1⟩ : BufTy).Contents (Elt F) → (⟨S67108864, .i1⟩ : BufTy).Contents (Elt F)),
    binary main_cst main_call0_v5 main_call0_v13 ((fun x i => Host.gather gather_S16_S67108864x1_S67108864_n_0_n_n_0_1_1 x i) : (⟨S16, .f32⟩ : BufTy).Contents (Elt F) → (⟨S67108864x1, .i32⟩ : BufTy).Contents (Elt F) → (⟨S67108864, .f32⟩ : BufTy).Contents (Elt F)),
    nullary main_call0_cst (constant S_ .f32 0x7FC00000#32),
    unary main_call0_cst main_call0_v14 (broadcastInDim S67108864 ![] bcast_S_S67108864 : (⟨S_, .f32⟩ : BufTy).Contents (Elt F) → (⟨S67108864, .f32⟩ : BufTy).Contents (Elt F)),
    ternary main_call0_v12 main_call0_v13 main_call0_v14 main_v1 (select : (⟨S67108864, .i1⟩ : BufTy).Contents (Elt F) → (⟨S67108864, .f32⟩ : BufTy).Contents (Elt F) → (⟨S67108864, .f32⟩ : BufTy).Contents (Elt F) → (⟨S67108864, .f32⟩ : BufTy).Contents (Elt F)),
    reshape main_v1 main_v2 rfl shapeCasts_S67108864_S1048576x64,
    unary main_arg2 main_v3 (broadcastInDim S1048576x1 ![0] bcast_S1048576_S1048576x1_0 : (⟨S1048576, .f32⟩ : BufTy).Contents (Elt F) → (⟨S1048576x1, .f32⟩ : BufTy).Contents (Elt F)),
    unary main_v3 main_v4 (broadcastInDim S1048576x64 ![0, 1] bcast_S1048576x1_S1048576x64_0_1 : (⟨S1048576x1, .f32⟩ : BufTy).Contents (Elt F) → (⟨S1048576x64, .f32⟩ : BufTy).Contents (Elt F)),
    binary main_v2 main_v4 main_v5 (mulf : (⟨S1048576x64, .f32⟩ : BufTy).Contents (Elt F) → (⟨S1048576x64, .f32⟩ : BufTy).Contents (Elt F) → (⟨S1048576x64, .f32⟩ : BufTy).Contents (Elt F)),
    reshape main_v5 main_v6 rfl shapeCasts_S1048576x64_S8192x8192,
    unary main_v6 main_v7 ((transpose S8192x8192 [1, 0] · transposes_S8192x8192_S8192x8192_1_0) : (⟨S8192x8192, .f32⟩ : BufTy).Contents (Elt F) → (⟨S8192x8192, .f32⟩ : BufTy).Contents (Elt F)),
    binary main_arg0 main_v7 main_v8 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    binary main_arg0 main_arg3 main_v9 ((fun l r => Host.dotGeneral dot_S64x8192_S8192x16_S64x16_1_0_0_1_n_n none l r) : (⟨S64x8192, .f32⟩ : BufTy).Contents (Elt F) → (⟨S8192x16, .f32⟩ : BufTy).Contents (Elt F) → (⟨S64x16, .f32⟩ : BufTy).Contents (Elt F)),
    binary main_v9 main_arg4 main_v10 ((fun l r => Host.dotGeneral dot_S64x16_S16x8192_S64x8192_1_0_0_1_n_n none l r) : (⟨S64x16, .f32⟩ : BufTy).Contents (Elt F) → (⟨S16x8192, .f32⟩ : BufTy).Contents (Elt F) → (⟨S64x8192, .f32⟩ : BufTy).Contents (Elt F)),
    nullary main_cst_0 (constant S_ .f32 0x3F800000#32),
    unary main_cst_0 main_v11 (broadcastInDim S64x8192 ![] bcast_S_S64x8192 : (⟨S_, .f32⟩ : BufTy).Contents (Elt F) → (⟨S64x8192, .f32⟩ : BufTy).Contents (Elt F)),
    binary main_v11 main_v10 main_v12 (mulf : (⟨S64x8192, .f32⟩ : BufTy).Contents (Elt F) → (⟨S64x8192, .f32⟩ : BufTy).Contents (Elt F) → (⟨S64x8192, .f32⟩ : BufTy).Contents (Elt F)),
    binary main_v8 main_v12 main_v13 (addf : (⟨S64x8192, .f32⟩ : BufTy).Contents (Elt F) → (⟨S64x8192, .f32⟩ : BufTy).Contents (Elt F) → (⟨S64x8192, .f32⟩ : BufTy).Contents (Elt F)) ]

attribute [local irreducible] Host.reduce Host.gather in
set_option maxRecDepth 2048 in
/-- The program is that straight line: the two callees' definitions unfolded at their calls and the call's record at
    its fields, both sides are one chain of steps once sequencing is reassociated; step by step the operations agree,
    a typed reference's transport at a literal buffer being the identity. -/
private theorem main_eq (c : Dev nD) : main (F := F) c = seq ops := by
  simp only [main, fn_take.body, fn_where.body, seq, bind_assoc, pure_bind]
  rfl

attribute [local irreducible] Host.reduce Host.gather in
set_option maxRecDepth 8192 in
set_option maxHeartbeats 400000 in
/-- The fold at the result buffer is the composed term: each operation's result rewritten at the buffer it writes and
    passed over at every other, what is left is the composed term itself, up to the names of the buffers' shapes. The
    reduction and the gather stay folded meanwhile: the equation never looks inside them. -/
private theorem out_eq (V : Valuation τ sig (Elt F)) :
    after ops V (main_v13 : DevRef τ sig)
      = out (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes the first argument. -/
private theorem arg0_eq (V : Valuation τ sig (Elt F)) :
    after ops V (main_arg0 : DevRef τ sig) = V (main_arg0 : DevRef τ sig) := by
  after_results_simp

/-- No operation writes the second argument. -/
private theorem arg1_eq (V : Valuation τ sig (Elt F)) :
    after ops V (main_arg1 : DevRef τ sig) = V (main_arg1 : DevRef τ sig) := by
  after_results_simp

/-- No operation writes the third argument. -/
private theorem arg2_eq (V : Valuation τ sig (Elt F)) :
    after ops V (main_arg2 : DevRef τ sig) = V (main_arg2 : DevRef τ sig) := by
  after_results_simp

/-- No operation writes the fourth argument. -/
private theorem arg3_eq (V : Valuation τ sig (Elt F)) :
    after ops V (main_arg3 : DevRef τ sig) = V (main_arg3 : DevRef τ sig) := by
  after_results_simp

/-- No operation writes the fifth argument. -/
private theorem arg4_eq (V : Valuation τ sig (Elt F)) :
    after ops V (main_arg4 : DevRef τ sig) = V (main_arg4 : DevRef τ sig) := by
  after_results_simp

/-- The signature scopes no buffer. -/
private theorem scopedRefs_eq : (Finset.univ.filter fun b : Ref sig .tc => b.isScoped) = ∅ := by decide
/-- The signature scopes no semaphore. -/
private theorem scopedSems_eq : (Finset.univ.filter fun sm : SemLoc sig => sm.isScoped .tc) = ∅ := by decide

/-- Every operation touches buffers of the one core only. -/
private theorem ops_sub : (ops : List (HloOp τ sig (Elt F))).Forall fun op => op.bufs ⊆ tcRefs τ sig :=
  ⟨nullary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub .., unary_bufs_sub .., unary_bufs_sub .., binary_bufs_sub .., reshape_bufs_sub .., unary_bufs_sub ..,
    binary_bufs_sub .., binary_bufs_sub .., binary_bufs_sub .., nullary_bufs_sub .., unary_bufs_sub .., binary_bufs_sub ..,
    binary_bufs_sub ..⟩

end Line

/-- Every weakly fair execution of the reference terminates with its result at `out` of the arguments, the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v13) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v13).trans (out_eq (StableHlo.launchContents m c)),
      (h c main_arg0).trans (arg0_eq (StableHlo.launchContents m c)),
      (h c main_arg1).trans (arg1_eq (StableHlo.launchContents m c)),
      (h c main_arg2).trans (arg2_eq (StableHlo.launchContents m c)),
      (h c main_arg3).trans (arg3_eq (StableHlo.launchContents m c)),
      (h c main_arg4).trans (arg4_eq (StableHlo.launchContents m c))⟩)
    (StableHlo.run_seq scopedRefs_eq scopedSems_eq defs main (fun _ => ops) main_eq (fun _ => ops_sub) m ρ)

end Cert.ReferenceIdeal.Hand

end
-- ==== Proof.RefValue.lean ====
/-
  The reference's composed term, read index by index at the extended reals, is the specification's function — for codes
  the table lookup accepts, where its validity test passes and the clamped lookup is the entry at the code's low four bits.

  The order of the argument. A code c with -16 ≤ c < 16, with 16 added when it is negative, lies in [0, 15] and equals
  c's low four bits; so both comparisons of the lookup's validity test give 1 at every index, their conjunction reduced
  over the axis of extent one is 1, and the lookup returns the gathered entry. The gather, with one start index per
  result index, reads the table at the start index taken signed and clamped into [0, 15], which here is the low four
  bits; the printed table is the specification's level table. The flat position of weight entry (o, i) is
  o * 8192 + i = (o * 128 + i / 64) * 64 + i % 64, so the two reshapes and the scale's two broadcasts give
  level(code) * absmax(o * 128 + i / 64) at (o, i), and the transpose exchanges the coordinates. Each of the three
  products contracts one axis and is the sum over that axis's coordinate of the products of the entries.
-/
import proofs.«404028_j44513041055937_2_alg».proof.Proof.RefTerm
import proofs.«404028_j44513041055937_2_alg».proof.Proof.Spec
import proofs.«404028_j44513041055937_2_alg».proof.Proof.Gen.ReferenceIdeal
import Idealize.ShloMosaic.Lib.ValueIdx
import Idealize.ShloMosaic.Lib.Pipeline.Value
import Idealize.ShloMosaic.Lib.Affine
import Idealize.ShloMosaic.Lib.StackMember
import Idealize.ShloMosaic.PureOps.Ideal.Laws

noncomputable section

namespace Cert.ReferenceIdeal.Hand

open Cert.ReferenceIdeal Idealize.ShloMosaic Idealize.ShloMosaic.ValueIdx

/-! ## A code in range, wrapped: its value is the code's low four bits -/

/-- The code with 16 added when it is negative. -/
private def wr (c : BitVec 32) : BitVec 32 := Scalar.select (IntOp.cmpi .slt c 0#32) (IntOp.addi c 16#32) c

private theorem wr_neg (c : BitVec 32) (h : c.toInt < 0) : wr c = c + 16#32 := by
  unfold wr
  rw [(IntOp.cmpi_slt (x := c) (y := 0#32)).2 (by simpa using h), select_one]
  rfl

private theorem wr_nonneg (c : BitVec 32) (h : 0 ≤ c.toInt) : wr c = c := by
  unfold wr
  have : ¬ IntOp.cmpi .slt c 0#32 = 1#1 := fun e => by
    have := (IntOp.cmpi_slt (x := c) (y := 0#32)).1 e
    simp at this; omega
  rw [eq_zero_of_ne_one this, select_zero]

private theorem wr_toInt (c : BitVec 32) (h : Cert.QLoRA.InRange c) : (wr c).toInt = (c.toNat % 16 : Nat) := by
  obtain ⟨h1, h2⟩ := h
  by_cases hn : c.toInt < 0
  · rw [wr_neg c hn]
    have := BitVec.toInt_eq_toNat_cond c
    have hc := c.isLt
    rw [BitVec.toInt_eq_toNat_cond, BitVec.toNat_add]
    simp only [BitVec.toNat_ofNat]
    split at this <;> split <;> omega
  · rw [wr_nonneg c (by omega)]
    have := BitVec.toInt_eq_toNat_cond c
    split at this <;> omega

/-! ## A gather of a flat table at a column of start indices, read at an index -/

section Take1
variable {α : Type}

/-- The dimension numbers of a lookup of a flat table at a column of start indices. -/
private abbrev colDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

private theorem gather_col_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (n : Fin R) :
    Host.gather (colDims N R wf) x idx (ix1 n)
      = x (ix1 ⟨min (idx (ix2 n (0 : Fin 1))).toInt.toNat (N - 1), by omega⟩) := by
  unfold Host.gather
  congr 1
  funext a
  obtain rfl : a = 0 := Subsingleton.elim _ _
  refine Fin.ext ?_
  show (colDims N R wf).start (ix1 n) idx 0 + (colDims N R wf).batchCoord (ix1 n) 0 + (colDims N R wf).offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx (ix1 n) ⟨List.idxOf (0 : Fin 1) (colDims N R wf).startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

end Take1

/-! ## The lookup read at an index -/

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

section TakeAt
open Cert.ReferenceIdeal Cert.ReferenceIdeal.Hand Facts₀
variable [Facts]

/-- The codes with the negative ones moved up by 16. -/
private def wrapped (idx : IVec S67108864 32) : IVec S67108864 32 :=
  select (cmpi .slt idx (broadcastInDim S67108864 ![] bcast_S_S67108864 (constantI S_ 32 0#32)))
    (addi idx (broadcastInDim S67108864 ![] bcast_S_S67108864 (constantI S_ 32 16#32))) idx

/-- The same as a column. -/
private def col (idx : IVec S67108864 32) : IVec S67108864x1 32 :=
  broadcastInDim S67108864x1 ![0] bcast_S67108864_S67108864x1_0 (wrapped idx)

private theorem wrapped_apply (idx : IVec S67108864 32) (i : S67108864.Idx) : wrapped idx i = wr (idx i) := rfl

private theorem col_apply (idx : IVec S67108864 32) (n : Fin 67108864) (z : Fin 1) : col idx (ix2 n z) = wr (idx (ix1 n)) := by
  unfold col
  refine (broadcastInDim_apply _ _ _ (ix2 n z) (ix1 n) fun a => ?_).trans (wrapped_apply idx _)
  match a with
  | ⟨0, _⟩ => exact show n.val = if (67108864 : Nat) = 1 then 0 else n.val from (if_neg (by decide)).symm

end TakeAt

section TakeAt2
open Cert.ReferenceIdeal Cert.ReferenceIdeal.Hand Facts₀
variable [Facts]

/-- The lookup's validity bits: the wrapped code is at least 0 and at most 15. -/
private def inTable (idx : IVec S67108864 32) : IVec S67108864x1 1 :=
  andi (cmpi .sge (col idx) (broadcastInDim S67108864x1 ![] bcast_S_S67108864x1 (constantI S_ 32 0#32)))
    (cmpi .sle (col idx) (broadcastInDim S67108864x1 ![0, 1] bcast_S1x1_S67108864x1_0_1
      (broadcastInDim S1x1 ![1] bcast_S1_S1x1_1 (constantI S1 32 15#32))))

private theorem take_eq (tbl : FVec Ideal S16 .f32) (idx : IVec S67108864 32) :
    take (F := Ideal) tbl idx
      = select (Host.reduce IntOp.andi (inTable idx) (constantI S_ 1 1#1) reducesTo_S67108864x1_S67108864_d1 h_S_)
          (Host.gather gather_S16_S67108864x1_S67108864_n_0_n_n_0_1_1 tbl (col idx))
          (broadcastInDim S67108864 ![] bcast_S_S67108864 (constant S_ .f32 0x7FC00000#32)) := rfl

private theorem inTable_one (idx : IVec S67108864 32) (h : ∀ i, Cert.QLoRA.InRange (idx i)) (j : S67108864x1.Idx) :
    inTable idx j = 1#1 := by
  obtain ⟨n, z, rfl⟩ : ∃ (n : Fin 67108864) (z : Fin 1), j = ix2 n z := ⟨_, _, eq_ix2 j⟩
  show IntOp.andi (IntOp.cmpi .sge (col idx (ix2 n z)) 0#32) (IntOp.cmpi .sle (col idx (ix2 n z)) 15#32) = 1#1
  rw [col_apply]
  have e := wr_toInt _ (h (ix1 n))
  refine IntOp.andi_eq_one.2 ⟨IntOp.cmpi_sge.2 ?_, IntOp.cmpi_sle.2 ?_⟩
  · rw [e]
    have : (0#32 : BitVec 32).toInt = 0 := by decide
    omega
  · rw [e]
    have : (15#32 : BitVec 32).toInt = 15 := by decide
    omega

private theorem take_apply (tbl : FVec Ideal S16 .f32) (idx : IVec S67108864 32) (h : ∀ i, Cert.QLoRA.InRange (idx i))
    (n : Fin 67108864) :
    take (F := Ideal) tbl idx (ix1 n) = tbl (ix1 ⟨(idx (ix1 n)).toNat % 16, Nat.mod_lt _ (by norm_num)⟩) := by
  rw [take_eq, select_apply]
  have hok : Host.reduce IntOp.andi (inTable idx) (constantI S_ 1 1#1) reducesTo_S67108864x1_S67108864_d1 h_S_ (ix1 n)
      = 1#1 := by
    rw [Host.reduce_eq_foldl]
    exact foldl_andi_one _ (inTable_one idx h) _
  rw [hok, select_one]
  refine (gather_col_apply (N := 16) (R := 67108864) (by norm_num) gather_S16_S67108864x1_S67108864_n_0_n_n_0_1_1_wf
    tbl (col idx) n).trans ?_
  refine congrArg tbl (congrArg ix1 (Fin.ext ?_))
  show min ((col idx (ix2 n 0)).toInt.toNat) (16 - 1) = (idx (ix1 n)).toNat % 16
  rw [col_apply, wr_toInt _ (h _)]
  omega

end TakeAt2

/-! ## The stages of the reference's term, each read at an index -/

section Stages
open Cert.ReferenceIdeal Cert.ReferenceIdeal.Hand Facts₀
variable [Facts]

/-- The printed table is the specification's, entry by entry. -/
private theorem lit0_rowMajor (k : Fin 16) : lit0 (S16.rowMajor (ix1 k)) = Cert.QLoRA.level k := by
  have e : (S16.rowMajor (ix1 k) : Fin 16) = k := Fin.ext (Shape.rowMajor_val_one _)
  rw [e]
  fin_cases k <;> rfl

/-- The level table as an array. -/
private def tbl : FVec Ideal S16 .f32 := fun i => FloatOps.ofBits .f32 (lit0 (S16.rowMajor i))

/-- The looked-up levels, flat. -/
private def vals (codes : IVec S8192x8192 32) : FVec Ideal S67108864 .f32 :=
  take tbl (shapeCast S67108864 codes shapeCasts_S8192x8192_S67108864)

/-- The block scales, one per row of the [1048576, 64] view. -/
private def scale (absmax : FVec Ideal S1048576 .f32) : FVec Ideal S1048576x64 .f32 :=
  broadcastInDim S1048576x64 ![0, 1] bcast_S1048576x1_S1048576x64_0_1
    (broadcastInDim S1048576x1 ![0] bcast_S1048576_S1048576x1_0 absmax)

/-- The dequantized weight. -/
private def wgt (codes : IVec S8192x8192 32) (absmax : FVec Ideal S1048576 .f32) : FVec Ideal S8192x8192 .f32 :=
  shapeCast S8192x8192 (mulf (shapeCast S1048576x64 (vals codes) shapeCasts_S67108864_S1048576x64) (scale absmax))
    shapeCasts_S1048576x64_S8192x8192

/-- Its transpose. -/
private def wgtT (codes : IVec S8192x8192 32) (absmax : FVec Ideal S1048576 .f32) : FVec Ideal S8192x8192 .f32 :=
  transpose S8192x8192 [1, 0] (wgt codes absmax) transposes_S8192x8192_S8192x8192_1_0

private theorem out_eq (x : FVec Ideal S64x8192 .f32) (codes : IVec S8192x8192 32) (absmax : FVec Ideal S1048576 .f32)
    (A : FVec Ideal S8192x16 .f32) (B : FVec Ideal S16x8192 .f32) :
    out (F := Ideal) x codes absmax A B
      = addf (Host.dotGeneral dot_S64x8192_S8192x8192_S64x8192_1_0_0_1_n_n none x (wgtT codes absmax))
          (mulf (broadcastInDim S64x8192 ![] bcast_S_S64x8192 (constant S_ .f32 0x3F800000#32))
            (Host.dotGeneral dot_S64x16_S16x8192_S64x8192_1_0_0_1_n_n none
              (Host.dotGeneral dot_S64x8192_S8192x16_S64x16_1_0_0_1_n_n none x A) B)) := rfl

private theorem vals_apply (codes : IVec S8192x8192 32) (hr : ∀ i, Cert.QLoRA.InRange (codes i)) (o i : Fin 8192) :
    vals codes (ix1 ⟨o.val * 8192 + i.val, by omega⟩) = Cert.QLoRA.decode (codes (ix2 o i)) := by
  unfold vals
  rw [take_apply tbl (shapeCast S67108864 codes shapeCasts_S8192x8192_S67108864) (fun j => hr _)]
  have e : shapeCast S67108864 codes shapeCasts_S8192x8192_S67108864 (ix1 ⟨o.val * 8192 + i.val, by omega⟩)
      = codes (ix2 o i) :=
    shapeCast_apply codes _ _ (ix2 o i) (by rw [Shape.rowMajor_val_two, Shape.rowMajor_val_one]; rfl)
  rw [e]
  unfold tbl Cert.QLoRA.decode
  rw [lit0_rowMajor]
  rfl

private theorem scale_apply (absmax : FVec Ideal S1048576 .f32) (r : Fin 1048576) (c : Fin 64) :
    scale absmax (ix2 r c) = absmax (ix1 r) := by
  unfold scale
  refine (broadcastInDim_apply _ _ _ (ix2 r c) (ix2 r (0 : Fin 1)) fun a => ?_).trans
    (broadcastInDim_apply _ _ _ (ix2 r (0 : Fin 1)) (ix1 r) fun a => ?_)
  · match a with
    | ⟨0, _⟩ => exact show r.val = if (1048576 : Nat) = 1 then 0 else r.val from (if_neg (by decide)).symm
    | ⟨1, _⟩ => exact show (0 : Nat) = if (1 : Nat) = 1 then 0 else c.val from (if_pos rfl).symm
  · match a with
    | ⟨0, _⟩ => exact show r.val = if (1048576 : Nat) = 1 then 0 else r.val from (if_neg (by decide)).symm

private theorem wgt_apply (codes : IVec S8192x8192 32) (absmax : FVec Ideal S1048576 .f32)
    (hr : ∀ i, Cert.QLoRA.InRange (codes i)) (o i : Fin 8192) :
    wgt codes absmax (ix2 o i) = Cert.QLoRA.weight codes absmax o i := by
  unfold wgt Cert.QLoRA.weight
  have hrow : o.val * 128 + i.val / 64 < 1048576 := by omega
  have hcol : i.val % 64 < 64 := Nat.mod_lt _ (by norm_num)
  refine (shapeCast_apply _ _ (ix2 o i) (ix2 (⟨o.val * 128 + i.val / 64, hrow⟩ : Fin 1048576) (⟨i.val % 64, hcol⟩ : Fin 64)) ?_).trans ?_
  · rw [Shape.rowMajor_val_two, Shape.rowMajor_val_two]
    show (o.val * 128 + i.val / 64) * 64 + i.val % 64 = o.val * 8192 + i.val
    omega
  have e1 : shapeCast S1048576x64 (vals codes) shapeCasts_S67108864_S1048576x64
        (ix2 (⟨o.val * 128 + i.val / 64, hrow⟩ : Fin 1048576) (⟨i.val % 64, hcol⟩ : Fin 64))
      = Cert.QLoRA.decode (codes (ix2 o i)) := by
    refine (shapeCast_apply _ _ _ (ix1 ⟨o.val * 8192 + i.val, by omega⟩) ?_).trans (vals_apply codes hr o i)
    rw [Shape.rowMajor_val_two, Shape.rowMajor_val_one]
    show o.val * 8192 + i.val = (o.val * 128 + i.val / 64) * 64 + i.val % 64
    omega
  rw [mulf_apply, scale_apply, e1]

private theorem wgtT_apply (codes : IVec S8192x8192 32) (absmax : FVec Ideal S1048576 .f32) (i o : Fin 8192) :
    wgtT codes absmax (ix2 i o) = wgt codes absmax (ix2 o i) := by
  unfold wgtT
  refine transpose_apply _ _ _ (ix2 i o) (ix2 o i) fun b => ?_
  match b with
  | ⟨0, _⟩ => rfl
  | ⟨1, _⟩ => rfl

end Stages

/-- With every code in the lookup's range, the reference's term is the specification. -/
theorem out_eq_G [Facts] (x : FVec Ideal S64x8192 .f32) (codes : IVec S8192x8192 32) (absmax : FVec Ideal S1048576 .f32)
    (A : FVec Ideal S8192x16 .f32) (B : FVec Ideal S16x8192 .f32) (hr : ∀ i, Cert.QLoRA.InRange (codes i)) :
    out (F := Ideal) x codes absmax A B = Cert.QLoRA.G x codes absmax A B := by
  funext j
  obtain ⟨t, o, rfl⟩ : ∃ (t : Fin 64) (o : Fin 8192), j = ix2 t o := ⟨_, _, eq_ix2 j⟩
  rw [Cert.QLoRA.G_ix2, out_eq]
  show Host.dotGeneral dot_S64x8192_S8192x8192_S64x8192_1_0_0_1_n_n none x (wgtT codes absmax) (ix2 t o)
      + Ideal.ofBits .f32 0x3F800000#32
        * Host.dotGeneral dot_S64x16_S16x8192_S64x8192_1_0_0_1_n_n none
            (Host.dotGeneral dot_S64x8192_S8192x16_S64x16_1_0_0_1_n_n none x A) B (ix2 t o) = _
  have h1 : Host.dotGeneral dot_S64x8192_S8192x8192_S64x8192_1_0_0_1_n_n none x (wgtT codes absmax) (ix2 t o)
      = ∑ i : Fin 8192, x (ix2 t i) * wgtT codes absmax (ix2 i o) :=
    StackMember.dotGeneral_plain_apply none x (wgtT codes absmax) t o
  have h2 : ∀ r : Fin 16, Host.dotGeneral dot_S64x8192_S8192x16_S64x16_1_0_0_1_n_n none x A (ix2 t r)
      = ∑ i : Fin 8192, x (ix2 t i) * A (ix2 i r) :=
    fun r => StackMember.dotGeneral_plain_apply none x A t r
  have h3 : Host.dotGeneral dot_S64x16_S16x8192_S64x8192_1_0_0_1_n_n none
        (Host.dotGeneral dot_S64x8192_S8192x16_S64x16_1_0_0_1_n_n none x A) B (ix2 t o)
      = ∑ r : Fin 16, Host.dotGeneral dot_S64x8192_S8192x16_S64x16_1_0_0_1_n_n none x A (ix2 t r) * B (ix2 r o) :=
    StackMember.dotGeneral_plain_apply none _ B t o
  rw [h1, h3]
  unfold Cert.QLoRA.resultAt Cert.QLoRA.dense Cert.QLoRA.lowRank Cert.QLoRA.proj Cert.QLoRA.one
  simp only [h2, wgtT_apply, wgt_apply codes absmax hr]

end Cert.ReferenceIdeal.Hand

end
-- ==== Proof.KerBody.lean ====
/-
  One grid point's arithmetic, named. A point adds to the running [64, 1024] accumulator the product of its x tile
  with the dequantized weight tile (the levels selected by the codes' low four bits, scaled by the absmax block
  expanded over its 64 columns); the first point of a run starts the accumulator at 1.0 times (x A) times the B tile.
-/
import proofs.«404028_j44513041055937_2_alg».proof.Proof.Gen.KernelIdeal.Skeleton

noncomputable section

namespace Cert.KernelIdeal.Body

open Cert.KernelIdeal Cert.KernelIdeal.Gen Idealize.ShloMosaic

variable {F : FTy → Type} [FloatOps F] [Facts]

/-- The levels selected by a tile of codes: the four-level select tree over the codes' low four bits. -/
def levels (v7 : Vec F S1024x1024 .i32) : FVec F S1024x1024 .f32 :=
  k0_pay12 v7 (k0_pay3 v7) (k0_pay4 v7) (k0_pay5 v7) (k0_pay6 v7) (k0_pay7 v7) (k0_pay8 v7) (k0_pay9 v7)
    (k0_pay10 (F := F)) (k0_pay11 (F := F))

/-- The sign of 64 as the body computes it for its floor division. -/
def sign64 : BitVec 32 :=
  Scalar.subi (Scalar.extui (Scalar.cmpi .sgt 64#32 0#32)) (Scalar.extui (Scalar.cmpi .slt 64#32 0#32))

/-- What a point leaves in the accumulator: what it held (`acc`) plus the x tile `v6` times the transposed dequantized
    weight tile built from the codes `v7` and the absmax tile `v92`. -/
def step (v6 : Vec F S64x1024 .f32) (v7 : Vec F S1024x1024 .i32) (v92 : Vec F S16x1024 .f32)
    (acc : Vec F S64x1024 .f32) : FVec F S64x1024 .f32 :=
  k0_pay1 v6 (levels v7) (iota .tc S16x1024 32 [1] iota_S16x1024_d1_w32) 64#32 (k0_pay13) (k0_pay14) sign64 v92 acc

/-- What the first point of a run stores first: 1.0 times the projected tokens `v105` times the B tile `v107`. -/
def start (v105 : Vec F S64x16 .f32) (v107 : Vec F S16x1024 .f32) : FVec F S64x1024 .f32 :=
  k0_pay2 v105 v107

end Cert.KernelIdeal.Body

end
-- ==== Proof.KerPieces.lean ====
/-
  What each control case of the body leaves behind, as the named arithmetic of one point. The first point of a run
  stores the start value into the accumulator and then the step over it, so the accumulator ends at the step of the
  start; a middle point stores the step over what the point before left; the last point does the same and copies the
  accumulator to the output block. The x tile a point reads is columns 1024 k … 1024 k + 1023 of the resident x block,
  k the point's second grid coordinate.
-/
import proofs.«404028_j44513041055937_2_alg».proof.Proof.KerBody
import proofs.«404028_j44513041055937_2_alg».proof.Proof.Gen.KernelIdeal.Frame
import Idealize.ShloMosaic.Lib.ValueIdx
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.ValueIdx

variable {F : FTy → Type} [FloatOps F] [Facts]

/-- The x tile of the point with coordinates `i`: the resident block's 1024 columns starting at 1024 times the second coordinate. -/
def xTile (i : grid0.Coords) (x0 : Vec F S64x8192 .f32) : Vec F S64x1024 .f32 :=
  fun y => x0 (ix2 (⟨(y 0).val, idx2_lt0 y⟩ : Fin 64) (⟨1024 * (i 1).val + (y 1).val, by have h8 : (i 1).val < 8 := (i 1).isLt; have h1 : (y 1).val < 1024 := idx2_lt1 y; omega⟩ : Fin 8192))

theorem xTile_apply (i : grid0.Coords) (x0 : Vec F S64x8192 .f32) (t : Fin 64) (cc : Fin 1024) :
    xTile i x0 (ix2 t cc) = x0 (ix2 t (⟨1024 * (i 1).val + cc.val, by have h8 : (i 1).val < 8 := (i 1).isLt; omega⟩ : Fin 8192)) := rfl

/-- The offsets of a rectangle that starts at the origin of a rank-two shape, as the constant zero function. -/
private theorem zeros2 : (![0, 0] : Fin 2 → Nat) = fun _ => 0 := funext fun a => by fin_cases a <;> rfl

/-- The rectangle a point reads from the resident x block (all 64 rows, the 1024 consecutive columns starting at 1024 times
    the point's second coordinate, unit strides) reads the point's x tile: the element at row `r`, column `q` of the
    rectangle is the block's element at row `0 + 1 · r`, column `1024 k + 1 · q`. -/
private theorem ld_xTile (i : grid0.Coords) (x0 : Vec F S64x8192 .f32) (inb : ∀ a, (k0_off1 i) a + S64x1024.size a ≤ S64x8192.size a) :
    View.ld x0 (Rect.unit (s := S64x8192) (k0_off1 i) S64x1024.size inb) = xTile i x0 := by
  funext y
  show x0 _ = x0 _
  congr 1
  funext a
  apply Fin.ext
  have h := k0_off1_eq i
  have h0 : k0_off1 i 0 = 0 := by rw [h]; rfl
  have h1 : k0_off1 i 1 = 1024 * (i 1).val := by rw [h]; rfl
  match a with
  | ⟨0, _⟩ => show k0_off1 i 0 + 1 * (y 0).val = (y 0).val; omega
  | ⟨1, _⟩ => show k0_off1 i 1 + 1 * (y 1).val = 1024 * (i 1).val + (y 1).val; omega

/-- First point of a run: the accumulator ends at the step over the start value. -/
theorem sout_A (c : Dev nD) (i : grid0.Coords) (arg2 : Memref sig .tc .vmem S64x8192 .f32) (harg2 : arg2.IsWhole) (arg3 : Memref sig .tc .vmem S1024x1024 .i32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S64x16 .f32) (harg6 : arg6.IsWhole) (arg7 : Memref sig .tc .vmem S64x1024 .f32) (harg7 : arg7.IsWhole) (arg8 : Memref sig .tc .vmem S64x1024 .f32) (harg8 : arg8.IsWhole) (hc0 : cond0_0 i) (hc1 : ¬cond0_1 i)
    (x0 : Vec F S64x8192 .f32) (x1 : Vec F S1024x1024 .i32) (x2 : Vec F S16x1024 .f32) (x3 : Vec F S16x1024 .f32) (x4 : Vec F S64x16 .f32) :
    sout0_A_0 c i arg2 harg2 arg3 harg3 arg4 harg4 arg5 harg5 arg6 harg6 arg7 harg7 arg8 harg8 hc0 hc1 x0 x1 x2 x3 x4 = step (xTile i x0) x1 x2 (start x4 x3) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_run_names
  rw [View.canon_cons_unit_zero (S := S64x1024) zeros2, View.readCov_unit_zero (S := S64x1024) _ zeros2]
  simp only [View.readAt_eq_ld, harg2.read_unread, harg3.read_unread, harg4.read_unread, harg5.read_unread, harg6.read_unread, harg8.read_unread, View.ld_unit_zero (S := S16x1024) zeros2, View.ld_unit_zero (S := S64x1024) zeros2, View.ld_unit_zero (S := S1024x1024) zeros2, View.ld_unit_zero (S := S64x16) zeros2]
  rw [← ld_xTile i x0 (k0_off1_inb i)]
  rfl

/-- A middle point: the step over what the point before left. -/
theorem sout_B (c : Dev nD) (i : grid0.Coords) (arg2 : Memref sig .tc .vmem S64x8192 .f32) (harg2 : arg2.IsWhole) (arg3 : Memref sig .tc .vmem S1024x1024 .i32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S64x16 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : ¬cond0_1 i)
    (x0 : Vec F S64x8192 .f32) (x1 : Vec F S1024x1024 .i32) (x2 : Vec F S16x1024 .f32) (x3 : Vec F S16x1024 .f32) (x4 : Vec F S64x16 .f32) (xs0 : Vec F S64x1024 .f32) :
    sout0_B_0 c i arg2 harg2 arg3 harg3 arg4 harg4 arg5 harg5 arg6 harg6 arg7 harg7 arg8 harg8 hc0 hc1 x0 x1 x2 x3 x4 xs0 = step (xTile i x0) x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_run_names
  rw [View.canon_unit_zero zeros2]
  simp only [View.readAt_eq_ld, harg2.read_unread, harg3.read_unread, harg4.read_unread, harg5.read_unread, harg6.read_unread, harg8.read_unread, View.ld_unit_zero (S := S16x1024) zeros2, View.ld_unit_zero (S := S64x1024) zeros2, View.ld_unit_zero (S := S1024x1024) zeros2, View.ld_unit_zero (S := S64x16) zeros2]
  rw [← ld_xTile i x0 (k0_off1_inb i)]
  rfl

/-- The last point of a run, the accumulator: the step over what the point before left. -/
theorem sout_C (c : Dev nD) (i : grid0.Coords) (arg2 : Memref sig .tc .vmem S64x8192 .f32) (harg2 : arg2.IsWhole) (arg3 : Memref sig .tc .vmem S1024x1024 .i32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S64x16 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : cond0_1 i)
    (x0 : Vec F S64x8192 .f32) (x1 : Vec F S1024x1024 .i32) (x2 : Vec F S16x1024 .f32) (x3 : Vec F S16x1024 .f32) (x4 : Vec F S64x16 .f32) (xs0 : Vec F S64x1024 .f32) :
    sout0_C_0 c i arg2 harg2 arg3 harg3 arg4 harg4 arg5 harg5 arg6 harg6 arg7 harg7 arg8 harg8 hc0 hc1 x0 x1 x2 x3 x4 xs0 = step (xTile i x0) x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_run_names
  rw [View.canon_unit_zero zeros2]
  simp only [View.readAt_eq_ld, harg2.read_unread, harg3.read_unread, harg4.read_unread, harg5.read_unread, harg6.read_unread, harg8.read_unread, View.ld_unit_zero (S := S16x1024) zeros2, View.ld_unit_zero (S := S64x1024) zeros2, View.ld_unit_zero (S := S1024x1024) zeros2, View.ld_unit_zero (S := S64x16) zeros2]
  rw [← ld_xTile i x0 (k0_off1_inb i)]
  rfl

/-- The last point of a run, the output block: the accumulator's final contents. -/
theorem out_C (c : Dev nD) (i : grid0.Coords) (arg2 : Memref sig .tc .vmem S64x8192 .f32) (harg2 : arg2.IsWhole) (arg3 : Memref sig .tc .vmem S1024x1024 .i32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S64x16 .f32) (harg6 : arg6.IsWhole) (arg7 : Memref sig .tc .vmem S64x1024 .f32) (harg7 : arg7.IsWhole) (arg8 : Memref sig .tc .vmem S64x1024 .f32) (harg8 : arg8.IsWhole) (hc0 : ¬cond0_0 i) (hc1 : cond0_1 i)
    (x0 : Vec F S64x8192 .f32) (x1 : Vec F S1024x1024 .i32) (x2 : Vec F S16x1024 .f32) (x3 : Vec F S16x1024 .f32) (x4 : Vec F S64x16 .f32) (xs0 : Vec F S64x1024 .f32) :
    out0_C_5 c i arg2 harg2 arg3 harg3 arg4 harg4 arg5 harg5 arg6 harg6 arg7 harg7 arg8 harg8 hc0 hc1 x0 x1 x2 x3 x4 xs0 = step (xTile i x0) x1 x2 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_run_names
  rw [View.canon_unit_zero zeros2, View.readCov_unit_zero (S := S64x1024) _ zeros2]
  simp only [View.readAt_eq_ld, harg2.read_unread, harg3.read_unread, harg4.read_unread, harg5.read_unread, harg6.read_unread, harg8.read_unread, View.ld_unit_zero (S := S16x1024) zeros2, View.ld_unit_zero (S := S64x1024) zeros2, View.ld_unit_zero (S := S1024x1024) zeros2, View.ld_unit_zero (S := S64x16) zeros2]
  rw [← ld_xTile i x0 (k0_off1_inb i)]
  rfl

end Cert.KernelIdeal.Body

end
-- ==== Proof.KerPayload.lean ====
/-
  One point's arithmetic read at an index of the accumulator, at the extended reals: the select tree is the level table
  at the code's low four bits; the product of the absmax tile with the 0/1 block indicator picks the one absmax entry of
  the column's block; the two matrix products are plain sums.
-/
import proofs.«404028_j44513041055937_2_alg».proof.Proof.KerBody
import proofs.«404028_j44513041055937_2_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

open scoped BigOperators

/-! ## Words: the floor division by 64 and the comparison with the row number -/

/-- The floor division by 64 on one word: the quotient rounded toward zero, less one when the dividend's sign differs
    from the sign of 64 and the remainder is not zero. -/
private def fdivWord (n : BitVec 32) : BitVec 32 :=
  Scalar.select
    (IntOp.andi
      (IntOp.cmpi .ne (IntOp.subi ((IntOp.cmpi .sgt n 0#32).setWidth 32) ((IntOp.cmpi .slt n 0#32).setWidth 32)) sign64)
      (IntOp.cmpi .ne (IntOp.remsi .vector n 64#32) 0#32))
    (IntOp.subi (IntOp.divsi .vector n 64#32) 1#32)
    (IntOp.divsi .vector n 64#32)

/-- On a column number below 1024 that floor division is the natural-number quotient: 1024 cases of word arithmetic. -/
private theorem fdivWord_eq : ∀ n : Fin 1024, fdivWord (BitVec.ofNat 32 n.val) = BitVec.ofNat 32 (n.val / 64) := by
  decide +kernel

/-- Two numbers below 16, as words, compare equal exactly when they are equal; widened, the answer is the word 1 or 0. -/
private theorem eqWord : ∀ q b : Fin 16, (IntOp.cmpi .eq (BitVec.ofNat 32 q.val) (BitVec.ofNat 32 b.val)).setWidth 32
    = if q = b then 1#32 else 0#32 := by
  decide +kernel

/-- The word 1 read as a signed integer is the extended real 1 … -/
private theorem one_word_cast : ((((1#32 : BitVec 32).toInt : ℤ) : ℝ) : EReal) = 1 := by
  have h : (1#32 : BitVec 32).toInt = 1 := by decide
  rw [h]; simp

/-- … and the word 0 the extended real 0. -/
private theorem zero_word_cast : ((((0#32 : BitVec 32).toInt : ℤ) : ℝ) : EReal) = 0 := by
  have h : (0#32 : BitVec 32).toInt = 0 := by decide
  rw [h]; simp

/-! ## Words: the select tree is the level table at the low four bits -/

/-- The select tree over four decided bits, on words: bit 3 chooses a half of the table, bit 2 a quarter, bit 1 a pair,
    bit 0 the entry. -/
private def treeBits (b0 b1 b2 b3 : BitVec 1) : BitVec 32 :=
  Scalar.select b3
    (Scalar.select b2
      (Scalar.select b1 (Scalar.select b0 0x3F800000#32 0x3F3913B3#32) (Scalar.select b0 0x3F1007AB#32 0x3EE1A4B8#32))
      (Scalar.select b1 (Scalar.select b0 0x3EAD033A#32 0x3E7C04DD#32) (Scalar.select b0 0x3E24CAE3#32 0x3DA2FAFF#32)))
    (Scalar.select b2
      (Scalar.select b1 (Scalar.select b0 0x00000000#32 0xBDBA7871#32) (Scalar.select b0 0xBE3D353F#32 0xBE91A24D#32))
      (Scalar.select b1 (Scalar.select b0 0xBECA32A0#32 0xBF066B30#32) (Scalar.select b0 0xBF3239B1#32 0xBF800000#32)))

/-- The same tree with each leaf read as an extended real. -/
private def treeVals (b0 b1 b2 b3 : BitVec 1) : EReal :=
  Scalar.select b3
    (Scalar.select b2
      (Scalar.select b1 (Scalar.select b0 (Ideal.ofBits .f32 0x3F800000#32) (Ideal.ofBits .f32 0x3F3913B3#32))
        (Scalar.select b0 (Ideal.ofBits .f32 0x3F1007AB#32) (Ideal.ofBits .f32 0x3EE1A4B8#32)))
      (Scalar.select b1 (Scalar.select b0 (Ideal.ofBits .f32 0x3EAD033A#32) (Ideal.ofBits .f32 0x3E7C04DD#32))
        (Scalar.select b0 (Ideal.ofBits .f32 0x3E24CAE3#32) (Ideal.ofBits .f32 0x3DA2FAFF#32))))
    (Scalar.select b2
      (Scalar.select b1 (Scalar.select b0 (Ideal.ofBits .f32 0x00000000#32) (Ideal.ofBits .f32 0xBDBA7871#32))
        (Scalar.select b0 (Ideal.ofBits .f32 0xBE3D353F#32) (Ideal.ofBits .f32 0xBE91A24D#32)))
      (Scalar.select b1 (Scalar.select b0 (Ideal.ofBits .f32 0xBECA32A0#32) (Ideal.ofBits .f32 0xBF066B30#32))
        (Scalar.select b0 (Ideal.ofBits .f32 0xBF3239B1#32) (Ideal.ofBits .f32 0xBF800000#32))))

/-- Reading a word as an extended real commutes with a select. -/
private theorem select_ofBits (b : BitVec 1) (x y : BitVec 32) :
    Scalar.select b (Ideal.ofBits .f32 x) (Ideal.ofBits .f32 y) = Ideal.ofBits .f32 (Scalar.select b x y) := by
  unfold Scalar.select
  split <;> rfl

private theorem treeVals_eq (b0 b1 b2 b3 : BitVec 1) : treeVals b0 b1 b2 b3 = Ideal.ofBits .f32 (treeBits b0 b1 b2 b3) := by
  unfold treeVals treeBits
  simp only [select_ofBits]

/-- On a four-bit number the tree over its bits is the table's entry at that number: 16 cases. -/
private theorem treeBits_nibble : ∀ d : BitVec 4,
    treeBits (BitVec.ofBool (d.getLsbD 0)) (BitVec.ofBool (d.getLsbD 1)) (BitVec.ofBool (d.getLsbD 2)) (BitVec.ofBool (d.getLsbD 3))
      = Cert.QLoRA.level ⟨d.toNat, d.isLt⟩ := by
  decide

/-- On any word the tree over its low four bits is the table's entry at the word modulo 16: the word's low four bits are
    the bits of its truncation to four bits, whose value is the word modulo 16. -/
private theorem treeBits_word (c : BitVec 32) :
    treeBits (BitVec.ofBool (c.getLsbD 0)) (BitVec.ofBool (c.getLsbD 1)) (BitVec.ofBool (c.getLsbD 2)) (BitVec.ofBool (c.getLsbD 3))
      = Cert.QLoRA.level ⟨c.toNat % 16, Nat.mod_lt _ (by norm_num)⟩ := by
  have h := treeBits_nibble (c.setWidth 4)
  have e0 : (c.setWidth 4).getLsbD 0 = c.getLsbD 0 := by simp [BitVec.getLsbD_setWidth]
  have e1 : (c.setWidth 4).getLsbD 1 = c.getLsbD 1 := by simp [BitVec.getLsbD_setWidth]
  have e2 : (c.setWidth 4).getLsbD 2 = c.getLsbD 2 := by simp [BitVec.getLsbD_setWidth]
  have e3 : (c.setWidth 4).getLsbD 3 = c.getLsbD 3 := by simp [BitVec.getLsbD_setWidth]
  rw [e0, e1, e2, e3] at h
  rw [h]
  exact congrArg Cert.QLoRA.level (Fin.ext (by simp [BitVec.toNat_setWidth]))

/-- Bit k of a word as the tree tests it: shift right arithmetically by k, mask with 1, compare with 0. -/
private def bit (c : BitVec 32) (k : Nat) : BitVec 1 :=
  IntOp.cmpi .ne (IntOp.andi (IntOp.shrsi .vector c (BitVec.ofNat 32 k)) 1#32) 0#32

private theorem bit_eq (c : BitVec 32) (k : Nat) (hk : k < 32) : bit c k = BitVec.ofBool (c.getLsbD k) := by
  have hk' : (BitVec.ofNat 32 k).toNat = k := by simp [BitVec.toNat_ofNat]; omega
  unfold bit IntOp.cmpi IntOp.andi IntOp.shrsi
  rw [if_pos (by rw [hk']; exact hk)]
  simp only [BitVec.sshiftRight', hk']
  rw [BitVec.and_one_eq_setWidth_ofBool_getLsbD]
  rw [BitVec.getLsbD_sshiftRight]
  simp only [Nat.add_zero, hk, if_true]
  cases c.getLsbD k <;> decide

section
variable [Facts]

/-! ## The levels at an index -/

/-- The select tree at an index is the level of the code there. -/
private theorem levels_apply (v7 : Vec Ideal S1024x1024 .i32) (i : S1024x1024.Idx) :
    levels (F := Ideal) v7 i = Cert.QLoRA.decode (v7 i) := by
  have h : levels (F := Ideal) v7 i = treeVals (bit (v7 i) 0) (bit (v7 i) 1) (bit (v7 i) 2) (bit (v7 i) 3) := rfl
  rw [h, treeVals_eq, bit_eq _ 0 (by norm_num), bit_eq _ 1 (by norm_num), bit_eq _ 2 (by norm_num),
    bit_eq _ 3 (by norm_num), treeBits_word]
  rfl

/-! ## The block indicator at an index -/

/-- The 0/1 indicator at (b, cc): 1 when column cc lies in block b of its row, that is cc / 64 = b, else 0. -/
private theorem indicator_apply (b : Fin 16) (cc : Fin 1024) :
    (sitofp .f32 (extui 32 (cmpi .eq
        (select
          (andi (cmpi .ne k0_pay14 (broadcast S16x1024 sign64))
            (cmpi .ne (remsi (iota .tc S16x1024 32 [1] iota_S16x1024_d1_w32) (broadcast S16x1024 64#32)) (broadcast S16x1024 0#32)))
          (subi k0_pay13 (broadcast S16x1024 1#32)) k0_pay13)
        (iota .tc S16x1024 32 [0] iota_S16x1024_d0_w32)) natLt_1_32) : FVec Ideal S16x1024 .f32) (ix2 b cc)
      = if (⟨cc.val / 64, by omega⟩ : Fin 16) = b then 1 else 0 := by
  have h1 : iota .tc S16x1024 32 [1] iota_S16x1024_d1_w32 (ix2 b cc) = BitVec.ofNat 32 cc.val :=
    iota_single_apply .tc S16x1024 32 1 iota_S16x1024_d1_w32 (ix2 b cc)
  have h0 : iota .tc S16x1024 32 [0] iota_S16x1024_d0_w32 (ix2 b cc) = BitVec.ofNat 32 b.val :=
    iota_single_apply .tc S16x1024 32 0 iota_S16x1024_d0_w32 (ix2 b cc)
  show (((((IntOp.cmpi .eq (fdivWord (iota .tc S16x1024 32 [1] iota_S16x1024_d1_w32 (ix2 b cc)))
      (iota .tc S16x1024 32 [0] iota_S16x1024_d0_w32 (ix2 b cc))).setWidth 32).toInt : ℤ) : ℝ) : EReal) = _
  rw [h1, h0, fdivWord_eq cc, eqWord ⟨cc.val / 64, by omega⟩ b]
  split
  · exact one_word_cast
  · exact zero_word_cast

/-! ## The three matrix products at an index -/

private theorem lhsS_0 (i : S64x1024.Idx) (q : dot_S64x16_S16x1024_S64x1024_1_0_0_1_n_n.contr.Idx) :
    (dot_S64x16_S16x1024_S64x1024_1_0_0_1_n_n.lhsIdx i q 0).val = (i 0).val := by
  unfold DotDims.lhsIdx
  rw [dif_neg (show ¬(0 : Fin S64x16.rank) ∈ dot_S64x16_S16x1024_S64x1024_1_0_0_1_n_n.lhsBatch by decide),
    dif_pos (show (0 : Fin S64x16.rank) ∈ dot_S64x16_S16x1024_S64x1024_1_0_0_1_n_n.lhsNonContracting by decide)]
  rfl

private theorem lhsS_1 (i : S64x1024.Idx) (q : dot_S64x16_S16x1024_S64x1024_1_0_0_1_n_n.contr.Idx) :
    (dot_S64x16_S16x1024_S64x1024_1_0_0_1_n_n.lhsIdx i q 1).val = (q ⟨0, by decide⟩).val :=
  dot_S64x16_S16x1024_S64x1024_1_0_0_1_n_n.lhsIdx_val_of_single rfl i q

private theorem rhsS_0 (i : S64x1024.Idx) (q : dot_S64x16_S16x1024_S64x1024_1_0_0_1_n_n.contr.Idx) :
    (dot_S64x16_S16x1024_S64x1024_1_0_0_1_n_n.rhsIdx i q 0).val = (q ⟨0, by decide⟩).val :=
  dot_S64x16_S16x1024_S64x1024_1_0_0_1_n_n.rhsIdx_val_of_single rfl i q

private theorem rhsS_1 (i : S64x1024.Idx) (q : dot_S64x16_S16x1024_S64x1024_1_0_0_1_n_n.contr.Idx) :
    (dot_S64x16_S16x1024_S64x1024_1_0_0_1_n_n.rhsIdx i q 1).val = (i 1).val := by
  unfold DotDims.rhsIdx
  rw [dif_neg (show ¬(1 : Fin S16x1024.rank) ∈ dot_S64x16_S16x1024_S64x1024_1_0_0_1_n_n.rhsBatch by decide),
    dif_pos (show (1 : Fin S16x1024.rank) ∈ dot_S64x16_S16x1024_S64x1024_1_0_0_1_n_n.rhsNonContracting by decide)]
  rfl

/-- Rows times columns over the 16 ranks, into zero, at (t, oo). -/
private theorem matmulS_apply (a : FVec Ideal S64x16 .f32) (b : FVec Ideal S16x1024 .f32) (t : Fin 64) (oo : Fin 1024) :
    matmul dot_S64x16_S16x1024_S64x1024_1_0_0_1_n_n (some .fp32) a b (constant (F := Ideal) S64x1024 .f32 0x00000000#32) (ix2 t oo)
      = ∑ r : Fin 16, a (ix2 t r) * b (ix2 r oo) := by
  refine (Ideal.matmul_constant_zero_apply _ _ a b (ix2 t oo)).trans ?_
  rw [← Equiv.sum_comp (contrEquiv1 dot_S64x16_S16x1024_S64x1024_1_0_0_1_n_n 16 rfl rfl).symm]
  refine Finset.sum_congr rfl fun k _ => ?_
  have hk := contrEquiv1_symm_val dot_S64x16_S16x1024_S64x1024_1_0_0_1_n_n 16 rfl rfl k
  have el : dot_S64x16_S16x1024_S64x1024_1_0_0_1_n_n.lhsIdx (ix2 t oo) ((contrEquiv1 dot_S64x16_S16x1024_S64x1024_1_0_0_1_n_n 16 rfl rfl).symm k) = ix2 t k :=
    funext fun a => Fin.ext (by
      match a with
      | ⟨0, _⟩ => exact lhsS_0 _ _
      | ⟨1, _⟩ => exact (lhsS_1 _ _).trans hk)
  have er : dot_S64x16_S16x1024_S64x1024_1_0_0_1_n_n.rhsIdx (ix2 t oo) ((contrEquiv1 dot_S64x16_S16x1024_S64x1024_1_0_0_1_n_n 16 rfl rfl).symm k) = ix2 k oo :=
    funext fun a => Fin.ext (by
      match a with
      | ⟨0, _⟩ => exact (rhsS_0 _ _).trans hk
      | ⟨1, _⟩ => exact rhsS_1 _ _)
  rw [el, er]

private theorem lhsB_0 (i : S64x1024.Idx) (q : dot_S64x1024_S1024x1024_S64x1024_1_1_0_0_n_n.contr.Idx) :
    (dot_S64x1024_S1024x1024_S64x1024_1_1_0_0_n_n.lhsIdx i q 0).val = (i 0).val := by
  unfold DotDims.lhsIdx
  rw [dif_neg (show ¬(0 : Fin S64x1024.rank) ∈ dot_S64x1024_S1024x1024_S64x1024_1_1_0_0_n_n.lhsBatch by decide),
    dif_pos (show (0 : Fin S64x1024.rank) ∈ dot_S64x1024_S1024x1024_S64x1024_1_1_0_0_n_n.lhsNonContracting by decide)]
  rfl

private theorem lhsB_1 (i : S64x1024.Idx) (q : dot_S64x1024_S1024x1024_S64x1024_1_1_0_0_n_n.contr.Idx) :
    (dot_S64x1024_S1024x1024_S64x1024_1_1_0_0_n_n.lhsIdx i q 1).val = (q ⟨0, by decide⟩).val :=
  dot_S64x1024_S1024x1024_S64x1024_1_1_0_0_n_n.lhsIdx_val_of_single rfl i q

private theorem rhsB_0 (i : S64x1024.Idx) (q : dot_S64x1024_S1024x1024_S64x1024_1_1_0_0_n_n.contr.Idx) :
    (dot_S64x1024_S1024x1024_S64x1024_1_1_0_0_n_n.rhsIdx i q 0).val = (i 1).val := by
  unfold DotDims.rhsIdx
  rw [dif_neg (show ¬(0 : Fin S1024x1024.rank) ∈ dot_S64x1024_S1024x1024_S64x1024_1_1_0_0_n_n.rhsBatch by decide),
    dif_pos (show (0 : Fin S1024x1024.rank) ∈ dot_S64x1024_S1024x1024_S64x1024_1_1_0_0_n_n.rhsNonContracting by decide)]
  rfl

private theorem rhsB_1 (i : S64x1024.Idx) (q : dot_S64x1024_S1024x1024_S64x1024_1_1_0_0_n_n.contr.Idx) :
    (dot_S64x1024_S1024x1024_S64x1024_1_1_0_0_n_n.rhsIdx i q 1).val = (q ⟨0, by decide⟩).val :=
  dot_S64x1024_S1024x1024_S64x1024_1_1_0_0_n_n.rhsIdx_val_of_single rfl i q

/-- Rows times rows over the tile's 1024 columns, into zero, at (t, oo). -/
private theorem matmulB_apply (a : FVec Ideal S64x1024 .f32) (b : FVec Ideal S1024x1024 .f32) (t : Fin 64) (oo : Fin 1024) :
    matmul dot_S64x1024_S1024x1024_S64x1024_1_1_0_0_n_n (some .fp32) a b (constant (F := Ideal) S64x1024 .f32 0x00000000#32) (ix2 t oo)
      = ∑ cc : Fin 1024, a (ix2 t cc) * b (ix2 oo cc) := by
  refine (Ideal.matmul_constant_zero_apply _ _ a b (ix2 t oo)).trans ?_
  rw [← Equiv.sum_comp (contrEquiv1 dot_S64x1024_S1024x1024_S64x1024_1_1_0_0_n_n 1024 rfl rfl).symm]
  refine Finset.sum_congr rfl fun k _ => ?_
  have hk := contrEquiv1_symm_val dot_S64x1024_S1024x1024_S64x1024_1_1_0_0_n_n 1024 rfl rfl k
  have el : dot_S64x1024_S1024x1024_S64x1024_1_1_0_0_n_n.lhsIdx (ix2 t oo) ((contrEquiv1 dot_S64x1024_S1024x1024_S64x1024_1_1_0_0_n_n 1024 rfl rfl).symm k) = ix2 t k :=
    funext fun a => Fin.ext (by
      match a with
      | ⟨0, _⟩ => exact lhsB_0 _ _
      | ⟨1, _⟩ => exact (lhsB_1 _ _).trans hk)
  have er : dot_S64x1024_S1024x1024_S64x1024_1_1_0_0_n_n.rhsIdx (ix2 t oo) ((contrEquiv1 dot_S64x1024_S1024x1024_S64x1024_1_1_0_0_n_n 1024 rfl rfl).symm k) = ix2 oo k :=
    funext fun a => Fin.ext (by
      match a with
      | ⟨0, _⟩ => exact rhsB_0 _ _
      | ⟨1, _⟩ => exact (rhsB_1 _ _).trans hk)
  rw [el, er]

private theorem lhsI_0 (i : S1024x1024.Idx) (q : dot_S16x1024_S16x1024_S1024x1024_0_0_1_1_n_n.contr.Idx) :
    (dot_S16x1024_S16x1024_S1024x1024_0_0_1_1_n_n.lhsIdx i q 0).val = (q ⟨0, by decide⟩).val :=
  dot_S16x1024_S16x1024_S1024x1024_0_0_1_1_n_n.lhsIdx_val_of_single rfl i q

private theorem lhsI_1 (i : S1024x1024.Idx) (q : dot_S16x1024_S16x1024_S1024x1024_0_0_1_1_n_n.contr.Idx) :
    (dot_S16x1024_S16x1024_S1024x1024_0_0_1_1_n_n.lhsIdx i q 1).val = (i 0).val := by
  unfold DotDims.lhsIdx
  rw [dif_neg (show ¬(1 : Fin S16x1024.rank) ∈ dot_S16x1024_S16x1024_S1024x1024_0_0_1_1_n_n.lhsBatch by decide),
    dif_pos (show (1 : Fin S16x1024.rank) ∈ dot_S16x1024_S16x1024_S1024x1024_0_0_1_1_n_n.lhsNonContracting by decide)]
  rfl

private theorem rhsI_0 (i : S1024x1024.Idx) (q : dot_S16x1024_S16x1024_S1024x1024_0_0_1_1_n_n.contr.Idx) :
    (dot_S16x1024_S16x1024_S1024x1024_0_0_1_1_n_n.rhsIdx i q 0).val = (q ⟨0, by decide⟩).val :=
  dot_S16x1024_S16x1024_S1024x1024_0_0_1_1_n_n.rhsIdx_val_of_single rfl i q

private theorem rhsI_1 (i : S1024x1024.Idx) (q : dot_S16x1024_S16x1024_S1024x1024_0_0_1_1_n_n.contr.Idx) :
    (dot_S16x1024_S16x1024_S1024x1024_0_0_1_1_n_n.rhsIdx i q 1).val = (i 1).val := by
  unfold DotDims.rhsIdx
  rw [dif_neg (show ¬(1 : Fin S16x1024.rank) ∈ dot_S16x1024_S16x1024_S1024x1024_0_0_1_1_n_n.rhsBatch by decide),
    dif_pos (show (1 : Fin S16x1024.rank) ∈ dot_S16x1024_S16x1024_S1024x1024_0_0_1_1_n_n.rhsNonContracting by decide)]
  rfl

/-- Columns times columns over the 16 block rows, into zero, at (oo, cc). -/
private theorem matmulI_apply (a b : FVec Ideal S16x1024 .f32) (oo cc : Fin 1024) :
    matmul dot_S16x1024_S16x1024_S1024x1024_0_0_1_1_n_n (some .fp32) a b (constant (F := Ideal) S1024x1024 .f32 0x00000000#32) (ix2 oo cc)
      = ∑ r : Fin 16, a (ix2 r oo) * b (ix2 r cc) := by
  refine (Ideal.matmul_constant_zero_apply _ _ a b (ix2 oo cc)).trans ?_
  rw [← Equiv.sum_comp (contrEquiv1 dot_S16x1024_S16x1024_S1024x1024_0_0_1_1_n_n 16 rfl rfl).symm]
  refine Finset.sum_congr rfl fun k _ => ?_
  have hk := contrEquiv1_symm_val dot_S16x1024_S16x1024_S1024x1024_0_0_1_1_n_n 16 rfl rfl k
  have el : dot_S16x1024_S16x1024_S1024x1024_0_0_1_1_n_n.lhsIdx (ix2 oo cc) ((contrEquiv1 dot_S16x1024_S16x1024_S1024x1024_0_0_1_1_n_n 16 rfl rfl).symm k) = ix2 k oo :=
    funext fun a => Fin.ext (by
      match a with
      | ⟨0, _⟩ => exact (lhsI_0 _ _).trans hk
      | ⟨1, _⟩ => exact lhsI_1 _ _)
  have er : dot_S16x1024_S16x1024_S1024x1024_0_0_1_1_n_n.rhsIdx (ix2 oo cc) ((contrEquiv1 dot_S16x1024_S16x1024_S1024x1024_0_0_1_1_n_n 16 rfl rfl).symm k) = ix2 k cc :=
    funext fun a => Fin.ext (by
      match a with
      | ⟨0, _⟩ => exact (rhsI_0 _ _).trans hk
      | ⟨1, _⟩ => exact rhsI_1 _ _)
  rw [el, er]

end

/-- A point's step at (t, oo): what the accumulator held, plus over the tile's 1024 columns the x entry times the
    level of the code at (oo, cc) times the absmax entry of column cc's block in row oo. -/
theorem step_apply [Facts] (v6 : Vec Ideal S64x1024 .f32) (v7 : Vec Ideal S1024x1024 .i32) (v92 : Vec Ideal S16x1024 .f32)
    (acc : Vec Ideal S64x1024 .f32) (t : Fin 64) (oo : Fin 1024) :
    step (F := Ideal) v6 v7 v92 acc (ix2 t oo)
      = acc (ix2 t oo) + ∑ cc : Fin 1024, v6 (ix2 t cc) *
          (Cert.QLoRA.decode (v7 (ix2 oo cc)) * v92 (ix2 (⟨cc.val / 64, by omega⟩ : Fin 16) oo)) := by
  unfold step k0_pay1
  simp only [shapeCast_self]
  rw [addf_apply, matmulB_apply]
  refine congrArg (acc (ix2 t oo) + ·) (Finset.sum_congr rfl fun cc _ => congrArg (v6 (ix2 t cc) * ·) ?_)
  rw [mulf_apply, levels_apply, matmulI_apply]
  refine congrArg (Cert.QLoRA.decode (v7 (ix2 oo cc)) * ·) ?_
  rw [Finset.sum_eq_single (⟨cc.val / 64, by omega⟩ : Fin 16)]
  · rw [indicator_apply, if_pos rfl, mul_one]
  · intro b _ hb
    rw [indicator_apply, if_neg (fun h => hb h.symm), mul_zero]
  · intro h
    exact absurd (Finset.mem_univ _) h

/-- A run's start at (t, oo): 1.0 times the sum over the 16 ranks of the projected token entry times the B entry. -/
theorem start_apply [Facts] (v105 : Vec Ideal S64x16 .f32) (v107 : Vec Ideal S16x1024 .f32) (t : Fin 64) (oo : Fin 1024) :
    start (F := Ideal) v105 v107 (ix2 t oo) = Cert.QLoRA.one * ∑ r : Fin 16, v105 (ix2 t r) * v107 (ix2 r oo) := by
  unfold start k0_pay2
  simp only [shapeCast_self]
  rw [mulf_apply, broadcast_apply, matmulS_apply]
  rfl

end Cert.KernelIdeal.Body

end
-- ==== Proof.KerReads.lean ====
/-
  What the body reads at grid point t = 8 o + k, entry by entry, in terms of the program's arguments. The x block is
  the whole x; the codes block is rows 1024 o … and columns 1024 k … of the codes; the absmax tile is rows 16 k … and
  columns 1024 o … of the transposed [128, 8192] view of absmax, whose entry (j, p) is absmax[128 p + j]; the B tile
  is columns 1024 o … of B; the projected tokens are x A, computed by the program before the region.
-/
import proofs.«404028_j44513041055937_2_alg».proof.Proof.Spec
import proofs.«404028_j44513041055937_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx

variable (m : (ℓ : Loc nD τ sig) → Buf (Elt Ideal) ℓ)

/-- The five input blocks of a point, at their literal types. -/
abbrev xBlk (c : Dev nD) (t : Fin cfg0.N) : Vec Ideal S64x8192 .f32 := iblk m c 0 t
abbrev codesBlk (c : Dev nD) (t : Fin cfg0.N) : Vec Ideal S1024x1024 .i32 := iblk m c 1 t
abbrev absBlk (c : Dev nD) (t : Fin cfg0.N) : Vec Ideal S16x1024 .f32 := iblk m c 2 t
abbrev bBlk (c : Dev nD) (t : Fin cfg0.N) : Vec Ideal S16x1024 .f32 := iblk m c 3 t
abbrev xaBlk (c : Dev nD) (t : Fin cfg0.N) : Vec Ideal S64x16 .f32 := iblk m c 4 t

/-- Point 8 o + k has second grid coordinate k. -/
theorem coords1 (t : Fin cfg0.N) (o k : Fin 8) (ht : t.val = 8 * o.val + k.val) : ((grid0.coords t) 1).val = k.val := by
  have h := (by decide +kernel : ∀ t : Fin grid0.N, ((grid0.coords t) 1).val = t.val % 8) t
  have ho := o.isLt
  have hk := k.isLt
  omega

/-- The printed index maps over the grid: each window's block index at point t in terms of t / 8 and t % 8. -/
private theorem index_facts : ∀ t : Fin cfg0.N,
    win0_0.index t (0 : Fin 2) = 0 ∧ win0_0.index t (1 : Fin 2) = 0
    ∧ win0_1.index t (0 : Fin 2) = t.val / 8 ∧ win0_1.index t (1 : Fin 2) = t.val % 8
    ∧ win0_2.index t (0 : Fin 2) = t.val % 8 ∧ win0_2.index t (1 : Fin 2) = t.val / 8
    ∧ win0_3.index t (0 : Fin 2) = 0 ∧ win0_3.index t (1 : Fin 2) = t.val / 8
    ∧ win0_4.index t (0 : Fin 2) = 0 ∧ win0_4.index t (1 : Fin 2) = 0 :=
  (by decide +kernel : ∀ t : Fin grid0.N, _)

theorem xBlk_apply (c : Dev nD) (t : Fin cfg0.N) (a : Fin 64) (b : Fin 8192) :
    xBlk m c t (ix2 a b) = (m ((c.tc : Thread nD τ).loc main_arg0)) (ix2 a b) := by
  obtain ⟨e0, e1, -⟩ := index_facts t
  show V m c main_arg0 (((cfg0.win 0).blk t).view.emb (ix2 a b)) = _
  rw [V_main_arg0]
  refine congrArg _ ?_
  funext ax
  apply Fin.ext
  match ax with
  | ⟨0, _⟩ => show win0_0.index t (0 : Fin 2) * 64 + 1 * a.val = a.val; omega
  | ⟨1, _⟩ => show win0_0.index t (1 : Fin 2) * 8192 + 1 * b.val = b.val; omega

theorem codesBlk_apply (c : Dev nD) (t : Fin cfg0.N) (o k : Fin 8) (ht : t.val = 8 * o.val + k.val) (oo cc : Fin 1024) :
    codesBlk m c t (ix2 oo cc)
      = (m ((c.tc : Thread nD τ).loc main_arg1)) (ix2 (⟨1024 * o.val + oo.val, by omega⟩ : Fin 8192) (⟨1024 * k.val + cc.val, by omega⟩ : Fin 8192)) := by
  obtain ⟨-, -, e0, e1, -⟩ := index_facts t
  have ho := o.isLt
  have hk := k.isLt
  show V m c main_arg1 (((cfg0.win 1).blk t).view.emb (ix2 oo cc)) = _
  rw [V_main_arg1]
  refine congrArg _ ?_
  funext ax
  apply Fin.ext
  match ax with
  | ⟨0, _⟩ => show win0_1.index t (0 : Fin 2) * 1024 + 1 * oo.val = 1024 * o.val + oo.val; omega
  | ⟨1, _⟩ => show win0_1.index t (1 : Fin 2) * 1024 + 1 * cc.val = 1024 * k.val + cc.val; omega

/-- The [128, 8192] array the region finds is absmax reshaped to [8192, 128] and transposed. -/
private theorem V_main_v1 (c : Dev nD) :
    (V m c main_v1 : S128x8192.Idx → EReal)
      = transpose S128x8192 [1, 0] (shapeCast S8192x128 (m ((c.tc : Thread nD τ).loc main_arg2)) shapeCasts_S1048576_S8192x128)
          transposes_S8192x128_S128x8192_1_0 := by
  dsimp only [Gen.V, Gen.hostOps0]; after_results; rfl

/-- Entry (j, p) of the transposed reshape of a flat array is the flat array's entry 128 p + j. -/
private theorem transpose_reshape_apply (x : S1048576.Idx → EReal) (j : Fin 128) (p : Fin 8192) :
    transpose S128x8192 [1, 0] (shapeCast S8192x128 x shapeCasts_S1048576_S8192x128) transposes_S8192x128_S128x8192_1_0 (ix2 j p)
      = x (ix1 (⟨p.val * 128 + j.val, by omega⟩ : Fin 1048576)) := by
  refine (transpose_apply [1, 0] _ transposes_S8192x128_S128x8192_1_0 (ix2 j p) (ix2 p j)
    fun b => match b with | ⟨0, _⟩ => rfl | ⟨1, _⟩ => rfl).trans ?_
  refine shapeCast_apply x shapeCasts_S1048576_S8192x128 (ix2 p j) (ix1 (⟨p.val * 128 + j.val, by omega⟩ : Fin 1048576)) ?_
  rw [Shape.rowMajor_val_one, Shape.rowMajor_val_two]
  rfl

theorem absBlk_apply (c : Dev nD) (t : Fin cfg0.N) (o k : Fin 8) (ht : t.val = 8 * o.val + k.val) (b : Fin 16) (oo : Fin 1024) :
    absBlk m c t (ix2 b oo)
      = (m ((c.tc : Thread nD τ).loc main_arg2)) (ix1 (⟨(1024 * o.val + oo.val) * 128 + (16 * k.val + b.val), by omega⟩ : Fin 1048576)) := by
  obtain ⟨-, -, -, -, e0, e1, -⟩ := index_facts t
  have ho := o.isLt
  have hk := k.isLt
  have hb := b.isLt
  have hoo := oo.isLt
  have hread : absBlk m c t (ix2 b oo)
      = (V m c main_v1 : S128x8192.Idx → EReal) (ix2 (⟨16 * k.val + b.val, by omega⟩ : Fin 128) (⟨1024 * o.val + oo.val, by omega⟩ : Fin 8192)) := by
    show V m c main_v1 (((cfg0.win 2).blk t).view.emb (ix2 b oo)) = _
    refine congrArg _ ?_
    funext ax
    apply Fin.ext
    match ax with
    | ⟨0, _⟩ => show win0_2.index t (0 : Fin 2) * 16 + 1 * b.val = 16 * k.val + b.val; omega
    | ⟨1, _⟩ => show win0_2.index t (1 : Fin 2) * 1024 + 1 * oo.val = 1024 * o.val + oo.val; omega
  rw [hread, V_main_v1, transpose_reshape_apply]

theorem bBlk_apply (c : Dev nD) (t : Fin cfg0.N) (o k : Fin 8) (ht : t.val = 8 * o.val + k.val) (r : Fin 16) (oo : Fin 1024) :
    bBlk m c t (ix2 r oo) = (m ((c.tc : Thread nD τ).loc main_arg4)) (ix2 r (⟨1024 * o.val + oo.val, by omega⟩ : Fin 8192)) := by
  obtain ⟨-, -, -, -, -, -, e0, e1, -⟩ := index_facts t
  have ho := o.isLt
  have hk := k.isLt
  show V m c main_arg4 (((cfg0.win 3).blk t).view.emb (ix2 r oo)) = _
  rw [V_main_arg4]
  refine congrArg _ ?_
  funext ax
  apply Fin.ext
  match ax with
  | ⟨0, _⟩ => show win0_3.index t (0 : Fin 2) * 16 + 1 * r.val = r.val; omega
  | ⟨1, _⟩ => show win0_3.index t (1 : Fin 2) * 1024 + 1 * oo.val = 1024 * o.val + oo.val; omega

/-- The projected tokens the region finds are the host's product of x with A. -/
private theorem V_main_v2 (c : Dev nD) :
    (V m c main_v2 : S64x16.Idx → EReal)
      = Host.dotGeneral (F := Ideal) (φ₁ := .f32) (φ₂ := .f32) dot_S64x8192_S8192x16_S64x16_1_0_0_1_n_n none
          (m ((c.tc : Thread nD τ).loc main_arg0)) (m ((c.tc : Thread nD τ).loc main_arg3)) := by
  dsimp only [Gen.V, Gen.hostOps0]; after_results

/-- The product's operand indices, axis by axis: the left operand is read at (row of the result, contraction position), -/
private theorem lhs_dot_S64x8192_S8192x16_S64x16_1_0_0_1_n_n_0 (j : S64x16.Idx) (k : dot_S64x8192_S8192x16_S64x16_1_0_0_1_n_n.contr.Idx) :
    ((dot_S64x8192_S8192x16_S64x16_1_0_0_1_n_n.lhsIdx j k) 0).val = (j 0).val := by
  unfold DotDims.lhsIdx
  rw [dif_neg (show ¬(0 : Fin S64x8192.rank) ∈ dot_S64x8192_S8192x16_S64x16_1_0_0_1_n_n.lhsBatch by decide),
    dif_pos (show (0 : Fin S64x8192.rank) ∈ dot_S64x8192_S8192x16_S64x16_1_0_0_1_n_n.lhsNonContracting by decide)]
  rfl
private theorem lhs_dot_S64x8192_S8192x16_S64x16_1_0_0_1_n_n_1 (j : S64x16.Idx) (k : dot_S64x8192_S8192x16_S64x16_1_0_0_1_n_n.contr.Idx) :
    ((dot_S64x8192_S8192x16_S64x16_1_0_0_1_n_n.lhsIdx j k) 1).val = (k ⟨0, by decide⟩).val :=
  DotDims.lhsIdx_val_of_single dot_S64x8192_S8192x16_S64x16_1_0_0_1_n_n (cl := 1) rfl j k
/-- and the right operand at (contraction position, column of the result). -/
private theorem rhs_dot_S64x8192_S8192x16_S64x16_1_0_0_1_n_n_0 (j : S64x16.Idx) (k : dot_S64x8192_S8192x16_S64x16_1_0_0_1_n_n.contr.Idx) :
    ((dot_S64x8192_S8192x16_S64x16_1_0_0_1_n_n.rhsIdx j k) 0).val = (k ⟨0, by decide⟩).val :=
  DotDims.rhsIdx_val_of_single dot_S64x8192_S8192x16_S64x16_1_0_0_1_n_n (cr := 0) rfl j k
private theorem rhs_dot_S64x8192_S8192x16_S64x16_1_0_0_1_n_n_1 (j : S64x16.Idx) (k : dot_S64x8192_S8192x16_S64x16_1_0_0_1_n_n.contr.Idx) :
    ((dot_S64x8192_S8192x16_S64x16_1_0_0_1_n_n.rhsIdx j k) 1).val = (j 1).val := by
  unfold DotDims.rhsIdx
  rw [dif_neg (show ¬(1 : Fin S8192x16.rank) ∈ dot_S64x8192_S8192x16_S64x16_1_0_0_1_n_n.rhsBatch by decide),
    dif_pos (show (1 : Fin S8192x16.rank) ∈ dot_S64x8192_S8192x16_S64x16_1_0_0_1_n_n.rhsNonContracting by decide)]
  rfl

theorem xaBlk_apply (c : Dev nD) (t : Fin cfg0.N) (a : Fin 64) (r : Fin 16) :
    xaBlk m c t (ix2 a r) = Cert.QLoRA.proj (m ((c.tc : Thread nD τ).loc main_arg0)) (m ((c.tc : Thread nD τ).loc main_arg3)) a r := by
  obtain ⟨-, -, -, -, -, -, -, -, e0, e1⟩ := index_facts t
  have hread : xaBlk m c t (ix2 a r) = (V m c main_v2 : S64x16.Idx → EReal) (ix2 a r) := by
    show V m c main_v2 (((cfg0.win 4).blk t).view.emb (ix2 a r)) = _
    refine congrArg _ ?_
    funext ax
    apply Fin.ext
    match ax with
    | ⟨0, _⟩ => show win0_4.index t (0 : Fin 2) * 64 + 1 * a.val = a.val; omega
    | ⟨1, _⟩ => show win0_4.index t (1 : Fin 2) * 16 + 1 * r.val = r.val; omega
  rw [hread, V_main_v2]
  simp only [Host.dotGeneral]
  rw [Ideal.dotGeneral_apply]
  unfold Cert.QLoRA.proj
  rw [← Equiv.sum_comp (contrEquiv1 dot_S64x8192_S8192x16_S64x16_1_0_0_1_n_n 8192 rfl rfl).symm]
  refine Finset.sum_congr rfl fun i _ => ?_
  have hl : dot_S64x8192_S8192x16_S64x16_1_0_0_1_n_n.lhsIdx (ix2 a r)
      ((contrEquiv1 dot_S64x8192_S8192x16_S64x16_1_0_0_1_n_n 8192 rfl rfl).symm i) = ix2 a i := by
    funext ax
    apply Fin.ext
    match ax with
    | ⟨0, _⟩ => exact lhs_dot_S64x8192_S8192x16_S64x16_1_0_0_1_n_n_0 _ _
    | ⟨1, _⟩ => exact (lhs_dot_S64x8192_S8192x16_S64x16_1_0_0_1_n_n_1 _ _).trans (contrEquiv1_symm_val _ 8192 rfl rfl i)
  have hr : dot_S64x8192_S8192x16_S64x16_1_0_0_1_n_n.rhsIdx (ix2 a r)
      ((contrEquiv1 dot_S64x8192_S8192x16_S64x16_1_0_0_1_n_n 8192 rfl rfl).symm i) = ix2 i r := by
    funext ax
    apply Fin.ext
    match ax with
    | ⟨0, _⟩ => exact (rhs_dot_S64x8192_S8192x16_S64x16_1_0_0_1_n_n_0 _ _).trans (contrEquiv1_symm_val _ 8192 rfl rfl i)
    | ⟨1, _⟩ => exact rhs_dot_S64x8192_S8192x16_S64x16_1_0_0_1_n_n_1 _ _
  rw [hl, hr]

end Cert.KernelIdeal.Hand

end
-- ==== Proof.KerAccum.lean ====
/-
  The kernel's result array. Grid point 8 o + k works on output columns 1024 o … 1024 o + 1023 and input columns
  1024 k … 1024 k + 1023; over the eight points of a run the accumulator goes from 1.0 (x A) B to that plus the eight
  tiles' products, and the last point writes it to block o of the result, the eight blocks tiling the array.
-/
import proofs.«404028_j44513041055937_2_alg».proof.Proof.KerPieces
import proofs.«404028_j44513041055937_2_alg».proof.Proof.KerPayload
import proofs.«404028_j44513041055937_2_alg».proof.Proof.KerReads
import proofs.«404028_j44513041055937_2_alg».proof.Proof.Spec
import proofs.«404028_j44513041055937_2_alg».proof.Proof.Gen.KernelIdeal.Value
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.ValueIdx

section Pieces

variable (m : (ℓ : Loc nD τ sig) → Buf (Elt Ideal) ℓ)

/-- The program's five arguments on core `c`, at their literal types. -/
private abbrev argX (c : Dev nD) : (⟨2, ![64, 8192]⟩ : Shape).Idx → EReal := m ((c.tc : Thread nD τ).loc main_arg0)
private abbrev argCodes (c : Dev nD) : (⟨2, ![8192, 8192]⟩ : Shape).Idx → BitVec 32 := m ((c.tc : Thread nD τ).loc main_arg1)
private abbrev argAbs (c : Dev nD) : (⟨1, ![1048576]⟩ : Shape).Idx → EReal := m ((c.tc : Thread nD τ).loc main_arg2)
private abbrev argA (c : Dev nD) : (⟨2, ![8192, 16]⟩ : Shape).Idx → EReal := m ((c.tc : Thread nD τ).loc main_arg3)
private abbrev argB (c : Dev nD) : (⟨2, ![16, 8192]⟩ : Shape).Idx → EReal := m ((c.tc : Thread nD τ).loc main_arg4)

/-- One point's step at (a, oo), at point 8 o + k: what the accumulator held plus the k-th tile's product at row a and
    output column 1024 o + oo. -/
private theorem step_at (c : Dev nD) (t : Fin cfg0.N) (o k : Fin 8) (ht : t.val = 8 * o.val + k.val)
    (acc : Vec Ideal S64x1024 .f32) (a : Fin 64) (oo : Fin 1024) :
    Body.step (F := Ideal) (Body.xTile (grid0.coords t) (xBlk m c t)) (codesBlk m c t) (absBlk m c t) acc (ix2 a oo)
      = acc (ix2 a oo) + Cert.QLoRA.denseTile (argX m c) (argCodes m c) (argAbs m c) a ⟨1024 * o.val + oo.val, by omega⟩ k := by
  refine (Body.step_apply (Body.xTile (grid0.coords t) (xBlk m c t)) (codesBlk m c t) (absBlk m c t) acc a oo).trans ?_
  refine congrArg (fun z => acc (ix2 a oo) + z) ?_
  unfold Cert.QLoRA.denseTile Cert.QLoRA.weight
  refine Finset.sum_congr rfl fun cc _ => ?_
  have hk := coords1 t o k ht
  rw [Body.xTile_apply, xBlk_apply, codesBlk_apply m c t o k ht, absBlk_apply m c t o k ht]
  have e1 : (⟨1024 * ((grid0.coords t) 1).val + cc.val, by have h1 := cc.isLt; have h2 := k.isLt; omega⟩ : Fin 8192)
      = ⟨1024 * k.val + cc.val, by have h1 := cc.isLt; have h2 := k.isLt; omega⟩ := Fin.ext (by dsimp only; omega)
  have e2 : (⟨(1024 * o.val + oo.val) * 128 + (16 * k.val + cc.val / 64), by have h1 := cc.isLt; have h2 := k.isLt; have h3 := o.isLt; have h4 := oo.isLt; omega⟩ : Fin 1048576)
      = ⟨(1024 * o.val + oo.val) * 128 + (1024 * k.val + cc.val) / 64, by have h1 := cc.isLt; have h2 := k.isLt; have h3 := o.isLt; have h4 := oo.isLt; omega⟩ := Fin.ext (by dsimp only; omega)
  exact congrArg₂ (· * ·) (congrArg (argX m c) (congrArg (ix2 a) e1))
    (congrArg (fun z => Cert.QLoRA.decode (argCodes m c (ix2 (⟨1024 * o.val + oo.val, by have h3 := o.isLt; have h4 := oo.isLt; omega⟩ : Fin 8192) (⟨1024 * k.val + cc.val, by have h1 := cc.isLt; have h2 := k.isLt; omega⟩ : Fin 8192))) * z)
      (congrArg (argAbs m c) (congrArg ix1 e2)))

end Pieces

section Points

variable (m : (ℓ : Loc nD τ sig) → Buf (Elt Ideal) ℓ)

/-- The low-rank start of a run at (a, oo), at any point of run o. -/
private theorem start_at (c : Dev nD) (t : Fin cfg0.N) (o k : Fin 8) (ht : t.val = 8 * o.val + k.val) (a : Fin 64) (oo : Fin 1024) :
    Body.start (F := Ideal) (xaBlk m c t) (bBlk m c t) (ix2 a oo)
      = Cert.QLoRA.one * Cert.QLoRA.lowRank (argX m c) (argA m c) (argB m c) a ⟨1024 * o.val + oo.val, by omega⟩ := by
  refine (Body.start_apply (xaBlk m c t) (bBlk m c t) a oo).trans ?_
  refine congrArg (fun z => Cert.QLoRA.one * z) ?_
  unfold Cert.QLoRA.lowRank
  refine Finset.sum_congr rfl fun r _ => ?_
  rw [xaBlk_apply, bBlk_apply m c t o k ht]

/-- What the first point of run o leaves in the accumulator at (a, oo): the low-rank term plus tile 0's product. -/
private theorem scAt_first (c : Dev nD) (n : ℕ) (hb : n < cfg0.N) (o : Fin 8) (hn : n = 8 * o.val)
    (acc : Vec Ideal S64x1024 .f32) (a : Fin 64) (oo : Fin 1024) :
    Value.scAt0_0 m c n hb acc (ix2 a oo)
      = Cert.QLoRA.one * Cert.QLoRA.lowRank (argX m c) (argA m c) (argB m c) a ⟨1024 * o.val + oo.val, by omega⟩
        + Cert.QLoRA.denseTile (argX m c) (argCodes m c) (argAbs m c) a ⟨1024 * o.val + oo.val, by omega⟩ ⟨n % 8, Nat.mod_lt _ (by norm_num)⟩ := by
  have h0 : n % 8 = 0 := by omega
  have h1 : ¬n % 8 = 7 := by omega
  have ht : (⟨n, hb⟩ : Fin cfg0.N).val = 8 * o.val + (⟨n % 8, Nat.mod_lt _ (by norm_num)⟩ : Fin 8).val := by dsimp only; omega
  unfold Value.scAt0_0
  rw [dif_pos h0, dif_neg h1]
  refine (congrFun (Body.sout_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (xBlk m c (⟨n, hb⟩ : Fin cfg0.N)) (codesBlk m c (⟨n, hb⟩ : Fin cfg0.N)) (absBlk m c (⟨n, hb⟩ : Fin cfg0.N)) (bBlk m c (⟨n, hb⟩ : Fin cfg0.N)) (xaBlk m c (⟨n, hb⟩ : Fin cfg0.N))) (ix2 a oo)).trans ?_
  refine (step_at m c ⟨n, hb⟩ o ⟨n % 8, Nat.mod_lt _ (by norm_num)⟩ ht _ a oo).trans ?_
  exact congrArg (fun z => z + Cert.QLoRA.denseTile (argX m c) (argCodes m c) (argAbs m c) a ⟨1024 * o.val + oo.val, by omega⟩ ⟨n % 8, Nat.mod_lt _ (by norm_num)⟩)
    (start_at m c ⟨n, hb⟩ o ⟨n % 8, Nat.mod_lt _ (by norm_num)⟩ ht a oo)

/-- What a later point 8 o + k (k ≠ 0) leaves in the accumulator at (a, oo): what it held plus tile k's product. -/
private theorem scAt_later (c : Dev nD) (n : ℕ) (hb : n < cfg0.N) (o : Fin 8) (hlo : 8 * o.val < n) (hhi : n ≤ 8 * o.val + 7)
    (acc : Vec Ideal S64x1024 .f32) (a : Fin 64) (oo : Fin 1024) :
    Value.scAt0_0 m c n hb acc (ix2 a oo)
      = acc (ix2 a oo)
        + Cert.QLoRA.denseTile (argX m c) (argCodes m c) (argAbs m c) a ⟨1024 * o.val + oo.val, by omega⟩ ⟨n % 8, Nat.mod_lt _ (by norm_num)⟩ := by
  have h0 : ¬n % 8 = 0 := by omega
  have ht : (⟨n, hb⟩ : Fin cfg0.N).val = 8 * o.val + (⟨n % 8, Nat.mod_lt _ (by norm_num)⟩ : Fin 8).val := by dsimp only; omega
  unfold Value.scAt0_0
  rw [dif_neg h0]
  by_cases h1 : n % 8 = 7
  · rw [dif_pos h1]
    refine (congrFun (Body.sout_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (xBlk m c (⟨n, hb⟩ : Fin cfg0.N)) (codesBlk m c (⟨n, hb⟩ : Fin cfg0.N)) (absBlk m c (⟨n, hb⟩ : Fin cfg0.N)) (bBlk m c (⟨n, hb⟩ : Fin cfg0.N)) (xaBlk m c (⟨n, hb⟩ : Fin cfg0.N)) acc) (ix2 a oo)).trans ?_
    exact step_at m c ⟨n, hb⟩ o ⟨n % 8, Nat.mod_lt _ (by norm_num)⟩ ht acc a oo
  · rw [dif_neg h1]
    refine (congrFun (Body.sout_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (xBlk m c (⟨n, hb⟩ : Fin cfg0.N)) (codesBlk m c (⟨n, hb⟩ : Fin cfg0.N)) (absBlk m c (⟨n, hb⟩ : Fin cfg0.N)) (bBlk m c (⟨n, hb⟩ : Fin cfg0.N)) (xaBlk m c (⟨n, hb⟩ : Fin cfg0.N)) acc) (ix2 a oo)).trans ?_
    exact step_at m c ⟨n, hb⟩ o ⟨n % 8, Nat.mod_lt _ (by norm_num)⟩ ht acc a oo

end Points

section Fold

variable (m : (ℓ : Loc nD τ sig) → Buf (Elt Ideal) ℓ)

/-- The accumulator after the last point of run o, at (a, oo): the specification's tiled arrangement at row a and
    output column 1024 o + oo. -/
private theorem scratch_last (c : Dev nD) (t : Fin cfg0.N) (o : Fin 8) (ht : t.val = 8 * o.val + 7) (a : Fin 64) (oo : Fin 1024) :
    (outsAt0 m c t.val t.isLt).2 (ix2 a oo)
      = Cert.QLoRA.tiledAt (argX m c) (argCodes m c) (argAbs m c) (argA m c) (argB m c) a ⟨1024 * o.val + oo.val, by omega⟩ := by
  have key : ∀ (q j : ℕ) (h : 8 * q + j < cfg0.N), q = o.val → j = 7 →
      Pipeline.accAt (fun n h => Value.scAt0_0 m c n h (VS0_0.read (Elt Ideal) VS0_0.junk)) (Value.scAt0_0 m c) (8 * q) j h (ix2 a oo)
        = Cert.QLoRA.tiledAt (argX m c) (argCodes m c) (argAbs m c) (argA m c) (argB m c) a ⟨1024 * o.val + oo.val, by omega⟩ := by
    intro q j h hq hj
    subst hq hj
    refine (Pipeline.accAt_add_apply (fun n h => Value.scAt0_0 m c n h (VS0_0.read (Elt Ideal) VS0_0.junk)) (Value.scAt0_0 m c)
      (fun y : S64x1024.Idx => Cert.QLoRA.one * Cert.QLoRA.lowRank (argX m c) (argA m c) (argB m c) ⟨(y 0).val, idx2_lt0 y⟩
        ⟨1024 * o.val + (y 1).val, by have h1 := idx2_lt1 y; omega⟩)
      (fun n (y : S64x1024.Idx) => Cert.QLoRA.denseTile (argX m c) (argCodes m c) (argAbs m c) ⟨(y 0).val, idx2_lt0 y⟩
        ⟨1024 * o.val + (y 1).val, by have h1 := idx2_lt1 y; omega⟩ ⟨n % 8, Nat.mod_lt _ (by norm_num)⟩)
      (8 * o.val) 7 ?_ ?_ 7 le_rfl h (ix2 a oo)).trans ?_
    · intro hb i
      obtain ⟨a', oo', rfl⟩ : ∃ (a' : Fin 64) (oo' : Fin 1024), i = ix2 a' oo' :=
        ⟨⟨(i 0).val, idx2_lt0 i⟩, ⟨(i 1).val, idx2_lt1 i⟩, eq_ix2 i⟩
      exact scAt_first m c (8 * o.val) hb o rfl _ a' oo'
    · intro n hb acc i hlo hhi
      obtain ⟨a', oo', rfl⟩ : ∃ (a' : Fin 64) (oo' : Fin 1024), i = ix2 a' oo' :=
        ⟨⟨(i 0).val, idx2_lt0 i⟩, ⟨(i 1).val, idx2_lt1 i⟩, eq_ix2 i⟩
      exact scAt_later m c n hb o hlo hhi acc a' oo'
    · unfold Cert.QLoRA.tiledAt
      refine congrArg (fun z => Cert.QLoRA.one * Cert.QLoRA.lowRank (argX m c) (argA m c) (argB m c) a ⟨1024 * o.val + oo.val, by omega⟩ + z) ?_
      refine Finset.sum_congr rfl fun s _ => ?_
      exact congrArg (Cert.QLoRA.denseTile (argX m c) (argCodes m c) (argAbs m c) a ⟨1024 * o.val + oo.val, by omega⟩)
        (Fin.ext (Nat.mul_add_mod 8 o.val s))
  rw [Value.soutsAt0_0_eq m c t]
  exact key (t.val / 8) (t.val % 8) _ (by omega) (by omega)

end Fold

section Array

variable (m : (ℓ : Loc nD τ sig) → Buf (Elt Ideal) ℓ)

/-- The result array of the specification's tiled arrangement, of core `c`'s arguments. -/
private abbrev result (c : Dev nD) : (⟨2, ![64, 8192]⟩ : Shape).Idx → EReal :=
  Cert.QLoRA.Gtiled (argX m c) (argCodes m c) (argAbs m c) (argA m c) (argB m c)

/-- The result window's block index at point t is (0, t / 8). -/
private theorem idx5 : ∀ t : Fin cfg0.N, win0_5.index t (0 : Fin 2) = 0 ∧ win0_5.index t (1 : Fin 2) = t.val / 8 :=
  (by decide +kernel : ∀ t : Fin grid0.N, win0_5.index t (0 : Fin 2) = 0 ∧ win0_5.index t (1 : Fin 2) = t.val / 8)

/-- At the last point of a run the output block is left at what the accumulator holds after the point. -/
private theorem out_eq_scratch (c : Dev nD) (t : Fin cfg0.N) (h0 : ¬t.val % 8 = 0) (h7 : t.val % 8 = 7) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t) (outsAt0 m c (t.val - 1) (Nat.lt_of_le_of_lt (Nat.sub_le _ _) t.isLt)).2
      = (outsAt0 m c t.val t.isLt).2 := by
  rw [outsAt0_C m c t h0 h7]
  dsimp only
  exact (Body.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (xBlk m c t) (codesBlk m c t) (absBlk m c t) (bBlk m c t) (xaBlk m c t) (outsAt0 m c (t.val - 1) (Nat.lt_of_le_of_lt (Nat.sub_le _ _) t.isLt)).2).trans
    (Body.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (xBlk m c t) (codesBlk m c t) (absBlk m c t) (bBlk m c t) (xaBlk m c t) (outsAt0 m c (t.val - 1) (Nat.lt_of_le_of_lt (Nat.sub_le _ _) t.isLt)).2).symm

/-- What a writing point writes back is its block of the result array. -/
private theorem flushed_eq (c : Dev nD) (t : Fin cfg0.N) (hf : (cfg0.win 5).flush t = true) :
    (dats m 0 c).flushed 5 t = ((cfg0.win 5).blk t).view.read (Elt Ideal) (result m c) := by
  have hN : cfg0.N = 64 := N_0
  have hlt := t.isLt
  have h7 : t.val % 8 = 7 := (flush0_5 t).mp hf
  have h0 : ¬t.val % 8 = 0 := by omega
  rw [Value.flushed5_C m c t h0 h7, out_eq_scratch m c t h0 h7]
  obtain ⟨i0, i1⟩ := idx5 t
  funext y
  have hy0 : (y 0).val < 64 := (y 0).isLt
  have hy1 : (y 1).val < 1024 := (y 1).isLt
  have hq : t.val / 8 < 8 := by omega
  refine Eq.trans (b := (outsAt0 m c t.val t.isLt).2 (ix2 (⟨(y 0).val, hy0⟩ : Fin 64) (⟨(y 1).val, hy1⟩ : Fin 1024))) ?_ ?_
  · show (outsAt0 m c t.val t.isLt).2 ((cfg0.win 5).xinj (grid0.coords t) y) = _
    refine congrArg (outsAt0 m c t.val t.isLt).2 ?_
    funext d
    match d with
    | ⟨0, _⟩ => rfl
    | ⟨1, _⟩ => rfl
  · refine (scratch_last m c t ⟨t.val / 8, hq⟩ (by dsimp only; omega) ⟨(y 0).val, hy0⟩ ⟨(y 1).val, hy1⟩).trans ?_
    show _ = result m c (((cfg0.win 5).blk t).view.emb y)
    have he : ((cfg0.win 5).blk t).view.emb y
        = ix2 (⟨(y 0).val, hy0⟩ : Fin 64) (⟨1024 * (t.val / 8) + (y 1).val, by omega⟩ : Fin 8192) := by
      funext d
      apply Fin.ext
      match d with
      | ⟨0, _⟩ => show win0_5.index t (0 : Fin 2) * 64 + 1 * (y 0).val = (y 0).val; rw [i0]; omega
      | ⟨1, _⟩ => show win0_5.index t (1 : Fin 2) * 1024 + 1 * (y 1).val = 1024 * (t.val / 8) + (y 1).val; rw [i1]; omega
    rw [he]
    rfl

end Array

section Cover

variable (m : (ℓ : Loc nD τ sig) → Buf (Elt Ideal) ℓ)

/-- An index of the result array is in point t's block iff each coordinate is in the block's range on its axis. -/
private theorem mem_blk (t : Fin cfg0.N) (i : S64x8192.Idx) :
    i ∈ ((cfg0.win 5).blk t).view.set
      ↔ ∀ a : Fin 2, win0_5.index t a * S64x1024.size a ≤ (i a).val ∧ (i a).val < win0_5.index t a * S64x1024.size a + S64x1024.size a := by
  show i ∈ ((View.whole main_v3).slice (win0_5.rect t)).set ↔ _
  rw [View.set_slice_whole, Rect.mem_set_unit]
  exact Iff.rfl

/-- Column p of the result lies in the block written at the last point of run p / 1024. -/
private theorem cover (i : S64x8192.Idx) :
    ∃ t : Fin cfg0.N, (cfg0.win 5).flush t = true ∧ i ∈ ((cfg0.win 5).blk t).view.set := by
  have hN : cfg0.N = 64 := N_0
  have hi0 : (i 0).val < 64 := (i 0).isLt
  have hi1 : (i 1).val < 8192 := (i 1).isLt
  have hb : 8 * ((i 1).val / 1024) + 7 < cfg0.N := by omega
  obtain ⟨e0, e1⟩ := idx5 ⟨8 * ((i 1).val / 1024) + 7, hb⟩
  refine ⟨⟨8 * ((i 1).val / 1024) + 7, hb⟩, (flush0_5 _).mpr (by dsimp only; omega), ?_⟩
  rw [mem_blk]
  intro a
  match a with
  | ⟨0, _⟩ =>
    show win0_5.index ⟨8 * ((i 1).val / 1024) + 7, hb⟩ (0 : Fin 2) * 64 ≤ (i 0).val
      ∧ (i 0).val < win0_5.index ⟨8 * ((i 1).val / 1024) + 7, hb⟩ (0 : Fin 2) * 64 + 64
    rw [e0]; omega
  | ⟨1, _⟩ =>
    show win0_5.index ⟨8 * ((i 1).val / 1024) + 7, hb⟩ (1 : Fin 2) * 1024 ≤ (i 1).val
      ∧ (i 1).val < win0_5.index ⟨8 * ((i 1).val / 1024) + 7, hb⟩ (1 : Fin 2) * 1024 + 1024
    rw [e1]; dsimp only; omega

/-- The result array after the run is the specification's tiled arrangement. -/
private theorem final (c : Dev nD) : (dats m 0 c).arrAt 5 cfg0.N = result m c :=
  (dats m 0 c).arrAt_eq_of_cover 5 (result m c) (flushed_eq m c) cover

end Cover

/-- Every weakly fair execution of the idealized kernel terminates with its result at the tiled arrangement of the
    specification, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = Cert.QLoRA.Gtiled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c), (h c).2⟩) (Value.run_blocks m ρ)

end Cert.KernelIdeal.Hand

end
-- ==== Proof.lean ====
/-
  The certificate. The three programs' frames, the empty idealization ledger, and the equivalence: at the extended reals
  the idealized kernel ends with its result at the specification in the kernel's arrangement (the low-rank term first,
  then the eight column tiles of the dense product in order), the reference with its result at the specification in its
  own arrangement (the dense product over all columns, then the low-rank term), and the two arrangements are one
  function. The reference's table lookup is the specification's only for codes in its range [-16, 16), which the
  precondition states.
-/
import proofs.«404028_j44513041055937_2_alg».proof.Defs
import proofs.«404028_j44513041055937_2_alg».proof.Proof.Gen.Kernel
import proofs.«404028_j44513041055937_2_alg».proof.Proof.Gen.Kernel.Frame
import proofs.«404028_j44513041055937_2_alg».proof.Proof.Gen.KernelIdeal
import proofs.«404028_j44513041055937_2_alg».proof.Proof.Gen.KernelIdeal.Frame
import proofs.«404028_j44513041055937_2_alg».proof.Proof.Gen.ReferenceIdeal
import proofs.«404028_j44513041055937_2_alg».proof.Proof.Gen.Pre_finite_inputs
import proofs.«404028_j44513041055937_2_alg».proof.Proof.Arrange
import proofs.«404028_j44513041055937_2_alg».proof.Proof.PreRange
import proofs.«404028_j44513041055937_2_alg».proof.Proof.RefRun
import proofs.«404028_j44513041055937_2_alg».proof.Proof.RefValue
import proofs.«404028_j44513041055937_2_alg».proof.Proof.KerAccum
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run (F := Ideal) m ρ)

theorem algebraic : Cert.algebraic_KernelIdeal_ReferenceIdeal := by
  intro m ρ m' ρ' hpre hagree
  refine ⟨fun c => Cert.QLoRA.G (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)), ?_, ?_⟩
  · exact (θ_run Cert.KernelIdeal.defs _ _).mono
      (fun _ h c => ⟨(h c).1.trans (Cert.QLoRA.Gtiled_eq_G _ _ _ _ _), (h c).2⟩) (Cert.KernelIdeal.Hand.run m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2]
    exact Cert.ReferenceIdeal.Hand.out_eq_G _ _ _ _ _ (Cert.Pre_finite_inputs.Hand.codes_inRange _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
